-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S800000x256 : Shape := ⟨2, ![800000, 256]⟩
abbrev S50000x3 : Shape := ⟨2, ![50000, 3]⟩
abbrev S50000x5x3 : Shape := ⟨3, ![50000, 5, 3]⟩
abbrev S2x800000 : Shape := ⟨2, ![2, 800000]⟩
abbrev S256x256 : Shape := ⟨2, ![256, 256]⟩
abbrev S256 : Shape := ⟨1, ![256]⟩
abbrev S256x1 : Shape := ⟨2, ![256, 1]⟩
abbrev S1 : Shape := ⟨1, ![1]⟩
abbrev S256x5 : Shape := ⟨2, ![256, 5]⟩
abbrev S5 : Shape := ⟨1, ![5]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S800000x256 : S_.BroadcastsInDim S800000x256 (![] : Fin 0 → Fin S800000x256.rank)
  reducesTo_S800000x256_S_d0_1 : S800000x256.ReducesTo [0, 1] S_
  bcast_S_S50000x3 : S_.BroadcastsInDim S50000x3 (![] : Fin 0 → Fin S50000x3.rank)
  reducesTo_S50000x3_S_d0_1 : S50000x3.ReducesTo [0, 1] S_
  bcast_S_S50000x5x3 : S_.BroadcastsInDim S50000x5x3 (![] : Fin 0 → Fin S50000x5x3.rank)
  reducesTo_S50000x5x3_S_d0_1_2 : S50000x5x3.ReducesTo [0, 1, 2] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_
  bcast_S_S256x5 : S_.BroadcastsInDim S256x5 (![] : Fin 0 → Fin S256x5.rank)
  reducesTo_S256x5_S_d0_1 : S256x5.ReducesTo [0, 1] S_
  bcast_S_S5 : S_.BroadcastsInDim S5 (![] : Fin 0 → Fin S5.rank)
  reducesTo_S5_S_d0 : S5.ReducesTo [0] S_

variable [Facts]

def fn_part3 {F : FTy → Type} [FloatOps F] (main_arg12 : FVec F S5 .f32) (main_v48 : IVec S_ 1) (main_v49 : FVec F S256x5 .f32) (main_v50 : FVec F S256x5 .f32) : IVec S_ 1 :=
  let main_v51 : IVec S256x5 1 := cmpf .olt main_v49 main_v50
  let main_c_19 : IVec S_ 1 := constantI S_ 1 1#1
  let main_v52 : IVec S_ 1 := (fun x v => Host.reduce IntOp.andi x v reducesTo_S256x5_S_d0_1 h_S_) main_v51 main_c_19
  let main_v53 : IVec S_ 1 := andi main_v48 main_v52
  let main_v54 : FVec F S5 .f32 := Host.absf main_arg12
  let main_cst_20 : FVec F S_ .f32 := constant S_ .f32 0x7F800000#32
  let main_v55 : FVec F S5 .f32 := broadcastInDim S5 ![] bcast_S_S5 main_cst_20
  let main_v56 : IVec S5 1 := cmpf .olt main_v54 main_v55
  let main_c_21 : IVec S_ 1 := constantI S_ 1 1#1
  let main_v57 : IVec S_ 1 := (fun x v => Host.reduce IntOp.andi x v reducesTo_S5_S_d0 h_S_) main_v56 main_c_21
  let main_v58 : IVec S_ 1 := andi main_v53 main_v57
  main_v58

def fn_part2 {F : FTy → Type} [FloatOps F] (main_arg8 : FVec F S1 .f32) (main_arg9 : FVec F S256x256 .f32) (main_arg10 : FVec F S256 .f32) (main_arg11 : FVec F S256x5 .f32) (main_arg12 : FVec F S5 .f32) (main_v33 : IVec S_ 1) : IVec S_ 1 :=
  let main_v34 : FVec F S1 .f32 := Host.absf main_arg8
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_v39 : FVec F S256x256 .f32 := Host.absf main_arg9
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x5 .f32 := Host.absf main_arg11
  let main_cst_18 : FVec F S_ .f32 := constant S_ .f32 0x7F800000#32
  let main_v50 : FVec F S256x5 .f32 := broadcastInDim S256x5 ![] bcast_S_S256x5 main_cst_18
  fn_part3 (F := F) main_arg12 main_v48 main_v49 main_v50

def fn_part1 {F : FTy → Type} [FloatOps F] (main_arg5 : FVec F S256x256 .f32) (main_arg6 : FVec F S256 .f32) (main_arg7 : FVec F S256x1 .f32) (main_arg8 : FVec F S1 .f32) (main_arg9 : FVec F S256x256 .f32) (main_arg10 : FVec F S256 .f32) (main_arg11 : FVec F S256x5 .f32) (main_arg12 : FVec F S5 .f32) (main_v13 : IVec S_ 1) (main_v16 : IVec S50000x5x3 1) : IVec S_ 1 :=
  let main_c_5 : IVec S_ 1 := constantI S_ 1 1#1
  let main_v17 : IVec S_ 1 := (fun x v => Host.reduce IntOp.andi x v reducesTo_S50000x5x3_S_d0_1_2 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x1 .f32 := Host.absf main_arg7
  let main_cst_10 : FVec F S_ .f32 := constant S_ .f32 0x7F800000#32
  let main_v30 : FVec F S256x1 .f32 := broadcastInDim S256x1 ![] bcast_S_S256x1 main_cst_10
  let main_v31 : IVec S256x1 1 := cmpf .olt main_v29 main_v30
  let main_c_11 : IVec S_ 1 := constantI S_ 1 1#1
  let main_v32 : IVec S_ 1 := (fun x v => Host.reduce IntOp.andi x v reducesTo_S256x1_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S50000x256 .f32) (main_arg1 : FVec F S800000x256 .f32) (main_arg2 : FVec F S50000x3 .f32) (main_arg3 : FVec F S50000x5x3 .f32) (main_arg4 : IVec S2x800000 32) (main_arg5 : FVec F S256x256 .f32) (main_arg6 : FVec F S256 .f32) (main_arg7 : FVec F S256x1 .f32) (main_arg8 : FVec F S1 .f32) (main_arg9 : FVec F S256x256 .f32) (main_arg10 : FVec F S256 .f32) (main_arg11 : FVec F S256x5 .f32) (main_arg12 : FVec F S5 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S800000x256 .f32 := Host.absf main_arg1
  let main_cst_0 : FVec F S_ .f32 := constant S_ .f32 0x7F800000#32
  let main_v5 : FVec F S800000x256 .f32 := broadcastInDim S800000x256 ![] bcast_S_S800000x256 main_cst_0
  let main_v6 : IVec S800000x256 1 := cmpf .olt main_v4 main_v5
  let main_c_1 : IVec S_ 1 := constantI S_ 1 1#1
  let main_v7 : IVec S_ 1 := (fun x v => Host.reduce IntOp.andi x v reducesTo_S800000x256_S_d0_1 h_S_) main_v6 main_c_1
  let main_v8 : IVec S_ 1 := andi main_v3 main_v7
  let main_v9 : FVec F S50000x3 .f32 := Host.absf main_arg2
  let main_cst_2 : FVec F S_ .f32 := constant S_ .f32 0x7F800000#32
  let main_v10 : FVec F S50000x3 .f32 := broadcastInDim S50000x3 ![] bcast_S_S50000x3 main_cst_2
  let main_v11 : IVec S50000x3 1 := cmpf .olt main_v9 main_v10
  let main_c_3 : IVec S_ 1 := constantI S_ 1 1#1
  let main_v12 : IVec S_ 1 := (fun x v => Host.reduce IntOp.andi x v reducesTo_S50000x3_S_d0_1 h_S_) main_v11 main_c_3
  let main_v13 : IVec S_ 1 := andi main_v8 main_v12
  let main_v14 : FVec F S50000x5x3 .f32 := Host.absf main_arg3
  let main_cst_4 : FVec F S_ .f32 := constant S_ .f32 0x7F800000#32
  let main_v15 : FVec F S50000x5x3 .f32 := broadcastInDim S50000x5x3 ![] bcast_S_S50000x5x3 main_cst_4
  let main_v16 : IVec S50000x5x3 1 := cmpf .olt main_v14 main_v15
  fn_part1 (F := F) main_arg5 main_arg6 main_arg7 main_arg8 main_arg9 main_arg10 main_arg11 main_arg12 main_v13 main_v16
-- ==== Kernel.lean ====
abbrev S50000x256 : Shape := ⟨2, ![50000, 256]⟩
abbrev S800000x256 : Shape := ⟨2, ![800000, 256]⟩
abbrev S50000x3 : Shape := ⟨2, ![50000, 3]⟩
abbrev S50000x5x3 : Shape := ⟨3, ![50000, 5, 3]⟩
abbrev S2x800000 : Shape := ⟨2, ![2, 800000]⟩
abbrev S256x256 : Shape := ⟨2, ![256, 256]⟩
abbrev S256 : Shape := ⟨1, ![256]⟩
abbrev S256x1 : Shape := ⟨2, ![256, 1]⟩
abbrev S1 : Shape := ⟨1, ![1]⟩
abbrev S256x5 : Shape := ⟨2, ![256, 5]⟩
abbrev S5 : Shape := ⟨1, ![5]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x3 : Shape := ⟨2, ![800000, 3]⟩
abbrev S1x256 : Shape := ⟨2, ![1, 256]⟩
abbrev S1x1 : Shape := ⟨2, ![1, 1]⟩
abbrev S8000x256 : Shape := ⟨2, ![8000, 256]⟩
abbrev S8000x3 : Shape := ⟨2, ![8000, 3]⟩
abbrev S8000 : Shape := ⟨1, ![8000]⟩
abbrev S8000x1 : Shape := ⟨2, ![8000, 1]⟩
abbrev S50000 : Shape := ⟨1, ![50000]⟩
abbrev S50000x1 : Shape := ⟨2, ![50000, 1]⟩
abbrev S50000x15 : Shape := ⟨2, ![50000, 15]⟩
abbrev S1x5 : Shape := ⟨2, ![1, 5]⟩
abbrev S5000x256 : Shape := ⟨2, ![5000, 256]⟩
abbrev S5000x15 : Shape := ⟨2, ![5000, 15]⟩
abbrev S5000x3 : Shape := ⟨2, ![5000, 3]⟩
abbrev S5000x5 : Shape := ⟨2, ![5000, 5]⟩
abbrev S5000x1 : Shape := ⟨2, ![5000, 1]⟩

abbrev nBuf : Space → Nat
  | .hbm => 61
  | .vmem => 22
  | .smem => 0
  | _ => 0

abbrev bufTy : (tb : Table) → Fin (tcTables nBuf tb) → BufTy
  | .hbm, ⟨0, _⟩ => ⟨S50000x256, .f32⟩
  | .hbm, ⟨1, _⟩ => ⟨S800000x256, .f32⟩
  | .hbm, ⟨2, _⟩ => ⟨S50000x3, .f32⟩
  | .hbm, ⟨3, _⟩ => ⟨S50000x5x3, .f32⟩
  | .hbm, ⟨4, _⟩ => ⟨S2x800000, .i32⟩
  | .hbm, ⟨5, _⟩ => ⟨S256x256, .f32⟩
  | .hbm, ⟨6, _⟩ => ⟨S256, .f32⟩
  | .hbm, ⟨7, _⟩ => ⟨S256x1, .f32⟩
  | .hbm, ⟨8, _⟩ => ⟨S1, .f32⟩
  | .hbm, ⟨9, _⟩ => ⟨S256x256, .f32⟩
  | .hbm, ⟨10, _⟩ => ⟨S256, .f32⟩
  | .hbm, ⟨11, _⟩ => ⟨S256x5, .f32⟩
  | .hbm, ⟨12, _⟩ => ⟨S5, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x3, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000x3, .f32⟩
  | .hbm, ⟨35, _⟩ => ⟨S800000x3, .f32⟩
  | .hbm, ⟨36, _⟩ => ⟨S256x256, .bf16⟩
  | .hbm, ⟨37, _⟩ => ⟨S1x256, .f32⟩
  | .hbm, ⟨38, _⟩ => ⟨S1x1, .f32⟩
  | .hbm, ⟨39, _⟩ => ⟨S800000x3, .f32⟩
  | .hbm, ⟨40, _⟩ => ⟨S_, .f32⟩
  | .hbm, ⟨41, _⟩ => ⟨S50000x3, .f32⟩
  | .hbm, ⟨42, _⟩ => ⟨S800000x1, .i32⟩
  | .hbm, ⟨43, _⟩ => ⟨S50000x3, .f32⟩
  | .hbm, ⟨44, _⟩ => ⟨S_, .f32⟩
  | .hbm, ⟨45, _⟩ => ⟨S800000, .f32⟩
  | .hbm, ⟨46, _⟩ => ⟨S_, .f32⟩
  | .hbm, ⟨47, _⟩ => ⟨S50000, .f32⟩
  | .hbm, ⟨48, _⟩ => ⟨S800000x1, .i32⟩
  | .hbm, ⟨49, _⟩ => ⟨S50000, .f32⟩
  | .hbm, ⟨50, _⟩ => ⟨S_, .f32⟩
  | .hbm, ⟨51, _⟩ => ⟨S50000, .f32⟩
  | .hbm, ⟨52, _⟩ => ⟨S50000, .f32⟩
  | .hbm, ⟨53, _⟩ => ⟨S50000x1, .f32⟩
  | .hbm, ⟨54, _⟩ => ⟨S50000x3, .f32⟩
  | .hbm, ⟨55, _⟩ => ⟨S50000x3, .f32⟩
  | .hbm, ⟨56, _⟩ => ⟨S50000x15, .f32⟩
  | .hbm, ⟨57, _⟩ => ⟨S256x256, .bf16⟩
  | .hbm, ⟨58, _⟩ => ⟨S1x256, .f32⟩
  | .hbm, ⟨59, _⟩ => ⟨S1x5, .f32⟩
  | .hbm, ⟨60, _⟩ => ⟨S50000x3, .f32⟩
  | .local _ .vmem, ⟨0, _⟩ => ⟨S8000x256, .f32⟩
  | .local _ .vmem, ⟨1, _⟩ => ⟨S8000x256, .f32⟩
  | .local _ .vmem, ⟨2, _⟩ => ⟨S256x256, .bf16⟩
  | .local _ .vmem, ⟨3, _⟩ => ⟨S1x256, .f32⟩
  | .local _ .vmem, ⟨4, _⟩ => ⟨S256x1, .f32⟩
  | .local _ .vmem, ⟨5, _⟩ => ⟨S1x1, .f32⟩
  | .local _ .vmem, ⟨6, _⟩ => ⟨S8000x3, .f32⟩
  | .local _ .vmem, ⟨7, _⟩ => ⟨S8000x3, .f32⟩
  | .local _ .vmem, ⟨8, _⟩ => ⟨S8000x3, .f32⟩
  | .local _ .vmem, ⟨9, _⟩ => ⟨S8000x3, .f32⟩
  | .local _ .vmem, ⟨10, _⟩ => ⟨S5000x256, .f32⟩
  | .local _ .vmem, ⟨11, _⟩ => ⟨S5000x256, .f32⟩
  | .local _ .vmem, ⟨12, _⟩ => ⟨S256x256, .bf16⟩
  | .local _ .vmem, ⟨13, _⟩ => ⟨S1x256, .f32⟩
  | .local _ .vmem, ⟨14, _⟩ => ⟨S256x5, .f32⟩
  | .local _ .vmem, ⟨15, _⟩ => ⟨S1x5, .f32⟩
  | .local _ .vmem, ⟨16, _⟩ => ⟨S5000x15, .f32⟩
  | .local _ .vmem, ⟨17, _⟩ => ⟨S5000x15, .f32⟩
  | .local _ .vmem, ⟨18, _⟩ => ⟨S5000x3, .f32⟩
  | .local _ .vmem, ⟨19, _⟩ => ⟨S5000x3, .f32⟩
  | .local _ .vmem, ⟨20, _⟩ => ⟨S5000x3, .f32⟩
  | .local _ .vmem, ⟨21, _⟩ => ⟨S5000x3, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_1 : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_cst_4 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc1_stg7_0 : Ref sig .tc := ⟨.vmem, 20, rfl⟩
abbrev cc1_stg7_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc1_sem6_0 : DmaSem sig := 18
abbrev cc1_sem6_1 : DmaSem sig := 19
abbrev cc1_sem7_0 : DmaSem sig := 20
abbrev cc1_sem7_1 : DmaSem sig := 21

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8000x3 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8000x3 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x5 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x5 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x15 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S5000x3 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S5000x3 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bitsLt_bf16_f32 : FTy.bits .bf16 < FTy.bits .f32
  shapeCasts_S256_S1x256 : S256.ShapeCasts S1x256
  shapeCasts_S1_S1x1 : S1.ShapeCasts S1x1
  inb_S8000x256_S8000x256_0_0 : ∀ a, (![0, 0] : Fin 2 → Nat) a + S8000x256.size a ≤ S8000x256.size a
  h_S8000x256 : 0 < S8000x256.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S8000x256 : S1x256.Broadcasts S8000x256
  inb_S256x1_S256x1_0_0 : ∀ a, (![0, 0] : Fin 2 → Nat) a + S256x1.size a ≤ S256x1.size a
  h_S256x1 : 0 < S256x1.numel
  shapeCasts_S256x1_S256 : S256x1.ShapeCasts S256
  reduces_S8000x256_S8000 : S8000x256.Reduces [1] S8000
  shapeCasts_S8000_S8000x1 : S8000.ShapeCasts S8000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S8000x1 : S1x1.Broadcasts S8000x1
  inb_S8000x3_S8000x3_0_0 : ∀ a, (![0, 0] : Fin 2 → Nat) a + S8000x3.size a ≤ S8000x3.size a
  h_S8000x3 : 0 < S8000x3.numel
  shapeCasts_S8000x3_S8000x3 : S8000x3.ShapeCasts S8000x3
  broadcasts_S8000x1_S8000x3 : S8000x1.Broadcasts S8000x3
  bcast_S_S50000x3 : S_.BroadcastsInDim S50000x3 (![] : Fin 0 → Fin S50000x3.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x3_0_1 : S50000x1.BroadcastsInDim S50000x3 (![0, 1] : Fin 2 → Fin S50000x3.rank)
  shapeCasts_S50000x5x3_S50000x15 : S50000x5x3.ShapeCasts S50000x15
  shapeCasts_S5_S1x5 : S5.ShapeCasts S1x5
  inb_S5000x256_S5000x256_0_0 : ∀ a, (![0, 0] : Fin 2 → Nat) a + S5000x256.size a ≤ S5000x256.size a
  h_S5000x256 : 0 < S5000x256.numel
  broadcasts_S1x256_S5000x256 : S1x256.Broadcasts S5000x256
  inb_S256x5_S256x5_0_0 : ∀ a, (![0, 0] : Fin 2 → Nat) a + S256x5.size a ≤ S256x5.size a
  h_S256x5 : 0 < S256x5.numel
  inb_S1x5_S1x5_0_0 : ∀ a, (![0, 0] : Fin 2 → Nat) a + S1x5.size a ≤ S1x5.size a
  h_S1x5 : 0 < S1x5.numel
  shapeCasts_S1x5_S1x5 : S1x5.ShapeCasts S1x5
  broadcasts_S1x5_S5000x5 : S1x5.Broadcasts S5000x5
  inb_S5000x15_S5000x15_0_0 : ∀ a, (![0, 0] : Fin 2 → Nat) a + S5000x15.size a ≤ S5000x15.size a
  h_S5000x15 : 0 < S5000x15.numel
  shapeCasts_S5000x15_S5000x15 : S5000x15.ShapeCasts S5000x15
  slices_S5000x5_o0_0_S5000x1 : S5000x5.Slices ![0, 0] S5000x1
  slices_S5000x15_o0_0_S5000x3 : S5000x15.Slices ![0, 0] S5000x3
  broadcasts_S5000x1_S5000x3 : S5000x1.Broadcasts S5000x3
  slices_S5000x5_o0_1_S5000x1 : S5000x5.Slices ![0, 1] S5000x1
  slices_S5000x15_o0_3_S5000x3 : S5000x15.Slices ![0, 3] S5000x3
  slices_S5000x5_o0_2_S5000x1 : S5000x5.Slices ![0, 2] S5000x1
  slices_S5000x15_o0_6_S5000x3 : S5000x15.Slices ![0, 6] S5000x3
  slices_S5000x5_o0_3_S5000x1 : S5000x5.Slices ![0, 3] S5000x1
  slices_S5000x15_o0_9_S5000x3 : S5000x15.Slices ![0, 9] S5000x3
  slices_S5000x5_o0_4_S5000x1 : S5000x5.Slices ![0, 4] S5000x1
  slices_S5000x15_o0_12_S5000x3 : S5000x15.Slices ![0, 12] S5000x3
  inb_S5000x3_S5000x3_0_0 : ∀ a, (![0, 0] : Fin 2 → Nat) a + S5000x3.size a ≤ S5000x3.size a
  h_S5000x3 : 0 < S5000x3.numel
  shapeCasts_S5000x3_S5000x3 : S5000x3.ShapeCasts S5000x3
  gather_S50000x3_S800000x1_S800000x3_1_0_n_n_0_1_13_wf : GatherDims.WF S50000x3 S800000x1 S800000x3 [1] [0] [] [0] [] 1 ![1, 3]
  dot_S8000x256_S256x256_S8000x256_1_0_0_1_n_n_wf : DotDims.WF S8000x256 S256x256 S8000x256 [1] [0] [0] [1] [] []
  scatter_S50000x3_S800000x1_S800000x3_1_0_0_1_wf : ScatterDims.WF S50000x3 S800000x1 S800000x3 [1] [0] [0] 1
  scatter_S50000_S800000x1_S800000_n_0_0_1_wf : ScatterDims.WF S50000 S800000x1 S800000 [] [0] [0] 1
  dot_S5000x256_S256x256_S5000x256_1_0_0_1_n_n_wf : DotDims.WF S5000x256 S256x256 S5000x256 [1] [0] [0] [1] [] []
  dot_S5000x256_S256x5_S5000x5_1_0_0_1_n_n_wf : DotDims.WF S5000x256 S256x5 S5000x5 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x256.size a ≤ S800000x256.size a
  hwx0_0 : ∀ i : grid0.Coords, EltTy.bits .f32 = 32 ∨ (Rect.block (s := S800000x256) S8000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S256x1.size a
  hwx0_3 : ∀ i : grid0.Coords, EltTy.bits .f32 = 32 ∨ (Rect.block (s := S256x1) S256x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8000x3.size a ≤ S800000x3.size a
  hwx0_5 : ∀ i : grid0.Coords, EltTy.bits .f32 = 32 ∨ (Rect.block (s := S800000x3) S8000x3.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8000x3.size a ≤ S800000x3.size a
  hwx0_6 : ∀ i : grid0.Coords, EltTy.bits .f32 = 32 ∨ (Rect.block (s := S800000x3) S8000x3.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .bf16 = 32 ∨ (Rect.block (s := S256x256) S256x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x5.size a ≤ S256x5.size a
  hwx1_3 : ∀ i : grid1.Coords, EltTy.bits .f32 = 32 ∨ (Rect.block (s := S256x5) S256x5.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x5.size a ≤ S1x5.size a
  hwx1_4 : ∀ i : grid1.Coords, EltTy.bits .f32 = 32 ∨ (Rect.block (s := S1x5) S1x5.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x15.size a ≤ S50000x15.size a
  hwx1_5 : ∀ i : grid1.Coords, EltTy.bits .f32 = 32 ∨ (Rect.block (s := S50000x15) S5000x15.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x3.size a ≤ S50000x3.size a
  hwx1_6 : ∀ i : grid1.Coords, EltTy.bits .f32 = 32 ∨ (Rect.block (s := S50000x3) S5000x3.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x3.size a ≤ S50000x3.size a
  hwx1_7 : ∀ i : grid1.Coords, EltTy.bits .f32 = 32 ∨ (Rect.block (s := S50000x3) S5000x3.size (cc1_transform_7 i) (hinb1_7 i)).WholeWords (EltTy.packing .f32)

variable [Facts₀]

def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def dot_S8000x256_S256x256_S8000x256_1_0_0_1_n_n : DotDims S8000x256 S256x256 S8000x256 where
  lhsContracting := [1]
  rhsContracting := [0]
  lhsNonContracting := [0]
  rhsNonContracting := [1]
  lhsBatch := []
  rhsBatch := []
  wf := dot_S8000x256_S256x256_S8000x256_1_0_0_1_n_n_wf
def scatter_S50000x3_S800000x1_S800000x3_1_0_0_1 : ScatterDims S50000x3 S800000x1 S800000x3 where
  updateWindowDims := [1]
  insertedWindowDims := [0]
  scatterDimsToOperandDims := [0]
  indexVectorDim := 1
  wf := scatter_S50000x3_S800000x1_S800000x3_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def dot_S5000x256_S256x5_S5000x5_1_0_0_1_n_n : DotDims S5000x256 S256x5 S5000x5 where
  lhsContracting := [1]
  rhsContracting := [0]
  lhsNonContracting := [0]
  rhsNonContracting := [1]
  lhsBatch := []
  rhsBatch := []
  wf := dot_S5000x256_S256x5_S5000x5_1_0_0_1_n_n_wf

abbrev win0_0 : Pipeline.Window sig grid0 :=
  Pipeline.Window.ofSpec (Memref.whole main_arg1) S8000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v20) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S256x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S8000x3.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v22) S8000x3.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v37) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg11) S256x5.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S1x5.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S5000x15.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v34) S5000x3.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v39) S5000x3.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x256 : Shape := ⟨2, ![50000, 256]⟩
abbrev S800000x256 : Shape := ⟨2, ![800000, 256]⟩
abbrev S50000x3 : Shape := ⟨2, ![50000, 3]⟩
abbrev S50000x5x3 : Shape := ⟨3, ![50000, 5, 3]⟩
abbrev S2x800000 : Shape := ⟨2, ![2, 800000]⟩
abbrev S256x256 : Shape := ⟨2, ![256, 256]⟩
abbrev S256 : Shape := ⟨1, ![256]⟩
abbrev S256x1 : Shape := ⟨2, ![256, 1]⟩
abbrev S1 : Shape := ⟨1, ![1]⟩
abbrev S256x5 : Shape := ⟨2, ![256, 5]⟩
abbrev S5 : Shape := ⟨1, ![5]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x3 : Shape := ⟨2, ![800000, 3]⟩
abbrev S1x256 : Shape := ⟨2, ![1, 256]⟩
abbrev S1x1 : Shape := ⟨2, ![1, 1]⟩
abbrev S50000 : Shape := ⟨1, ![50000]⟩
abbrev S50000x1 : Shape := ⟨2, ![50000, 1]⟩
abbrev S50000x5 : Shape := ⟨2, ![50000, 5]⟩
abbrev S1x5 : Shape := ⟨2, ![1, 5]⟩
abbrev S50000x5x1 : Shape := ⟨3, ![50000, 5, 1]⟩

abbrev nBuf : Space → Nat
  | .hbm => 94
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S800000x256, .f32⟩
  | .hbm, ⟨2, _⟩ => ⟨S50000x3, .f32⟩
  | .hbm, ⟨3, _⟩ => ⟨S50000x5x3, .f32⟩
  | .hbm, ⟨4, _⟩ => ⟨S2x800000, .i32⟩
  | .hbm, ⟨5, _⟩ => ⟨S256x256, .f32⟩
  | .hbm, ⟨6, _⟩ => ⟨S256, .f32⟩
  | .hbm, ⟨7, _⟩ => ⟨S256x1, .f32⟩
  | .hbm, ⟨8, _⟩ => ⟨S1, .f32⟩
  | .hbm, ⟨9, _⟩ => ⟨S256x256, .f32⟩
  | .hbm, ⟨10, _⟩ => ⟨S256, .f32⟩
  | .hbm, ⟨11, _⟩ => ⟨S256x5, .f32⟩
  | .hbm, ⟨12, _⟩ => ⟨S5, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x3, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000x3, .f32⟩
  | .hbm, ⟨35, _⟩ => ⟨S800000x3, .f32⟩
  | .hbm, ⟨36, _⟩ => ⟨S800000x256, .f32⟩
  | .hbm, ⟨37, _⟩ => ⟨S1x256, .f32⟩
  | .hbm, ⟨38, _⟩ => ⟨S800000x256, .f32⟩
  | .hbm, ⟨39, _⟩ => ⟨S800000x256, .f32⟩
  | .hbm, ⟨40, _⟩ => ⟨S800000x256, .f32⟩
  | .hbm, ⟨41, _⟩ => ⟨S800000x256, .f32⟩
  | .hbm, ⟨42, _⟩ => ⟨S_, .f32⟩
  | .hbm, ⟨43, _⟩ => ⟨S800000x256, .f32⟩
  | .hbm, ⟨44, _⟩ => ⟨S800000x256, .f32⟩
  | .hbm, ⟨45, _⟩ => ⟨S_, .f32⟩
  | .hbm, ⟨46, _⟩ => ⟨S800000x256, .f32⟩
  | .hbm, ⟨47, _⟩ => ⟨S800000x256, .f32⟩
  | .hbm, ⟨48, _⟩ => ⟨S800000x256, .f32⟩
  | .hbm, ⟨49, _⟩ => ⟨S800000x1, .f32⟩
  | .hbm, ⟨50, _⟩ => ⟨S1x1, .f32⟩
  | .hbm, ⟨51, _⟩ => ⟨S800000x1, .f32⟩
  | .hbm, ⟨52, _⟩ => ⟨S800000x1, .f32⟩
  | .hbm, ⟨53, _⟩ => ⟨S800000x3, .f32⟩
  | .hbm, ⟨54, _⟩ => ⟨S800000x3, .f32⟩
  | .hbm, ⟨55, _⟩ => ⟨S_, .f32⟩
  | .hbm, ⟨56, _⟩ => ⟨S50000x3, .f32⟩
  | .hbm, ⟨57, _⟩ => ⟨S800000x1, .i32⟩
  | .hbm, ⟨58, _⟩ => ⟨S50000x3, .f32⟩
  | .hbm, ⟨59, _⟩ => ⟨S_, .f32⟩
  | .hbm, ⟨60, _⟩ => ⟨S800000, .f32⟩
  | .hbm, ⟨61, _⟩ => ⟨S_, .f32⟩
  | .hbm, ⟨62, _⟩ => ⟨S50000, .f32⟩
  | .hbm, ⟨63, _⟩ => ⟨S800000x1, .i32⟩
  | .hbm, ⟨64, _⟩ => ⟨S50000, .f32⟩
  | .hbm, ⟨65, _⟩ => ⟨S_, .f32⟩
  | .hbm, ⟨66, _⟩ => ⟨S50000, .f32⟩
  | .hbm, ⟨67, _⟩ => ⟨S50000, .f32⟩
  | .hbm, ⟨68, _⟩ => ⟨S50000x1, .f32⟩
  | .hbm, ⟨69, _⟩ => ⟨S50000x3, .f32⟩
  | .hbm, ⟨70, _⟩ => ⟨S50000x3, .f32⟩
  | .hbm, ⟨71, _⟩ => ⟨S50000x256, .f32⟩
  | .hbm, ⟨72, _⟩ => ⟨S1x256, .f32⟩
  | .hbm, ⟨73, _⟩ => ⟨S50000x256, .f32⟩
  | .hbm, ⟨74, _⟩ => ⟨S50000x256, .f32⟩
  | .hbm, ⟨75, _⟩ => ⟨S50000x256, .f32⟩
  | .hbm, ⟨76, _⟩ => ⟨S50000x256, .f32⟩
  | .hbm, ⟨77, _⟩ => ⟨S_, .f32⟩
  | .hbm, ⟨78, _⟩ => ⟨S50000x256, .f32⟩
  | .hbm, ⟨79, _⟩ => ⟨S50000x256, .f32⟩
  | .hbm, ⟨80, _⟩ => ⟨S_, .f32⟩
  | .hbm, ⟨81, _⟩ => ⟨S50000x256, .f32⟩
  | .hbm, ⟨82, _⟩ => ⟨S50000x256, .f32⟩
  | .hbm, ⟨83, _⟩ => ⟨S50000x256, .f32⟩
  | .hbm, ⟨84, _⟩ => ⟨S50000x5, .f32⟩
  | .hbm, ⟨85, _⟩ => ⟨S1x5, .f32⟩
  | .hbm, ⟨86, _⟩ => ⟨S50000x5, .f32⟩
  | .hbm, ⟨87, _⟩ => ⟨S50000x5, .f32⟩
  | .hbm, ⟨88, _⟩ => ⟨S50000x5x1, .f32⟩
  | .hbm, ⟨89, _⟩ => ⟨S50000x5x3, .f32⟩
  | .hbm, ⟨90, _⟩ => ⟨S50000x5x3, .f32⟩
  | .hbm, ⟨91, _⟩ => ⟨S_, .f32⟩
  | .hbm, ⟨92, _⟩ => ⟨S50000x3, .f32⟩
  | .hbm, ⟨93, _⟩ => ⟨S50000x3, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_1 : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_cst : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_3 : Ref sig .tc := ⟨.hbm, 59, rfl⟩
abbrev main_v33 : Ref sig .tc := ⟨.hbm, 60, rfl⟩
abbrev main_cst_4 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_cst_5 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_call1_v0 : Ref sig .tc := ⟨.hbm, 75, rfl⟩
abbrev main_call1_v1 : Ref sig .tc := ⟨.hbm, 76, rfl⟩
abbrev main_call1_cst : Ref sig .tc := ⟨.hbm, 77, rfl⟩
abbrev main_call1_v2 : Ref sig .tc := ⟨.hbm, 78, rfl⟩
abbrev main_call1_v3 : Ref sig .tc := ⟨.hbm, 79, rfl⟩
abbrev main_call1_cst_0 : Ref sig .tc := ⟨.hbm, 80, rfl⟩
abbrev main_call1_v4 : Ref sig .tc := ⟨.hbm, 81, rfl⟩
abbrev main_call1_v5 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_cst_6 : Ref sig .tc := ⟨.hbm, 91, rfl⟩
abbrev main_v54 : Ref sig .tc := ⟨.hbm, 92, rfl⟩
abbrev main_v55 : Ref sig .tc := ⟨.hbm, 93, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S256_S1x256_1 : S256.BroadcastsInDim S1x256 (![1] : Fin 1 → Fin S1x256.rank)
  bcast_S1x256_S800000x256_0_1 : S1x256.BroadcastsInDim S800000x256 (![0, 1] : Fin 2 → Fin S800000x256.rank)
  bcast_S_S800000x256 : S_.BroadcastsInDim S800000x256 (![] : Fin 0 → Fin S800000x256.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  bcast_S800000x1_S800000x3_0_1 : S800000x1.BroadcastsInDim S800000x3 (![0, 1] : Fin 2 → Fin S800000x3.rank)
  bcast_S_S50000x3 : S_.BroadcastsInDim S50000x3 (![] : Fin 0 → Fin S50000x3.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x3_0_1 : S50000x1.BroadcastsInDim S50000x3 (![0, 1] : Fin 2 → Fin S50000x3.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S5_S1x5_1 : S5.BroadcastsInDim S1x5 (![1] : Fin 1 → Fin S1x5.rank)
  bcast_S1x5_S50000x5_0_1 : S1x5.BroadcastsInDim S50000x5 (![0, 1] : Fin 2 → Fin S50000x5.rank)
  bcast_S50000x5_S50000x5x1_0_1 : S50000x5.BroadcastsInDim S50000x5x1 (![0, 1] : Fin 2 → Fin S50000x5x1.rank)
  bcast_S50000x5x1_S50000x5x3_0_1_2 : S50000x5x1.BroadcastsInDim S50000x5x3 (![0, 1, 2] : Fin 3 → Fin S50000x5x3.rank)
  reducesTo_S50000x5x3_S50000x3_d1 : S50000x5x3.ReducesTo [1] S50000x3
  h_S_ : 0 < S_.numel
  gather_S50000x3_S800000x1_S800000x3_1_0_n_n_0_1_13_wf : GatherDims.WF S50000x3 S800000x1 S800000x3 [1] [0] [] [0] [] 1 ![1, 3]
  dot_S800000x256_S256x256_S800000x256_1_0_0_1_n_n_wf : DotDims.WF S800000x256 S256x256 S800000x256 [1] [0] [0] [1] [] []
  dot_S800000x256_S256x1_S800000x1_1_0_0_1_n_n_wf : DotDims.WF S800000x256 S256x1 S800000x1 [1] [0] [0] [1] [] []
  scatter_S50000x3_S800000x1_S800000x3_1_0_0_1_wf : ScatterDims.WF S50000x3 S800000x1 S800000x3 [1] [0] [0] 1
  scatter_S50000_S800000x1_S800000_n_0_0_1_wf : ScatterDims.WF S50000 S800000x1 S800000 [] [0] [0] 1
  dot_S50000x256_S256x256_S50000x256_1_0_0_1_n_n_wf : DotDims.WF S50000x256 S256x256 S50000x256 [1] [0] [0] [1] [] []
  dot_S50000x256_S256x5_S50000x5_1_0_0_1_n_n_wf : DotDims.WF S50000x256 S256x5 S50000x5 [1] [0] [0] [1] [] []

variable [Facts₀]

def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def dot_S800000x256_S256x256_S800000x256_1_0_0_1_n_n : DotDims S800000x256 S256x256 S800000x256 where
  lhsContracting := [1]
  rhsContracting := [0]
  lhsNonContracting := [0]
  rhsNonContracting := [1]
  lhsBatch := []
  rhsBatch := []
  wf := dot_S800000x256_S256x256_S800000x256_1_0_0_1_n_n_wf
def dot_S800000x256_S256x1_S800000x1_1_0_0_1_n_n : DotDims S800000x256 S256x1 S800000x1 where
  lhsContracting := [1]
  rhsContracting := [0]
  lhsNonContracting := [0]
  rhsNonContracting := [1]
  lhsBatch := []
  rhsBatch := []
  wf := dot_S800000x256_S256x1_S800000x1_1_0_0_1_n_n_wf
def scatter_S50000x3_S800000x1_S800000x3_1_0_0_1 : ScatterDims S50000x3 S800000x1 S800000x3 where
  updateWindowDims := [1]
  insertedWindowDims := [0]
  scatterDimsToOperandDims := [0]
  indexVectorDim := 1
  wf := scatter_S50000x3_S800000x1_S800000x3_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x5_S50000x5_1_0_0_1_n_n : DotDims S50000x256 S256x5 S50000x5 where
  lhsContracting := [1]
  rhsContracting := [0]
  lhsNonContracting := [0]
  rhsNonContracting := [1]
  lhsBatch := []
  rhsBatch := []
  wf := dot_S50000x256_S256x5_S50000x5_1_0_0_1_n_n_wf

class Facts : Prop extends Facts₀ where

variable [Facts]
-- ==== Proof.Mlp.lean ====
/-
  The arithmetic both programs share, over the extended reals.

  Each of the two perceptrons maps a row x of 256 features to
      out = ( Σ_l silu( (Σ_r x_r · W_{r,l}) + b_l ) · w_l ) + b'
  for one output column w of the second weight and its bias b', where silu h = h · 1/(1 + e^{-h}).
  Stated once here, so that the kernel's payloads and the reference's stages are both read as this function.
-/
import Idealize.ShloMosaic.PureOps.Ideal
import Idealize.ShloMosaic.PureOps.Ideal.Laws

noncomputable section

namespace Cert.Mlp

open Idealize.ShloMosaic

/-- h · sigmoid(h) at the exact values. -/
def silu (h : EReal) : EReal := h * Ideal.logistic h

/-- A hidden unit before its activation: the row's inner product with column l of the first weight, plus the bias. -/
def hid (x : Fin 256 → EReal) (W : Fin 256 → Fin 256 → EReal) (b : Fin 256 → EReal) (l : Fin 256) : EReal :=
  (∑ r : Fin 256, x r * W r l) + b l

/-- One output unit: the activated hidden units against one column of the second weight, plus its bias. -/
def out (x : Fin 256 → EReal) (W : Fin 256 → Fin 256 → EReal) (b : Fin 256 → EReal) (w : Fin 256 → EReal) (b' : EReal) : EReal :=
  (∑ l : Fin 256, silu (hid x W b l) * w l) + b'

/-- The f32 word of 1.0 is the real 1. -/
theorem one_word : Ideal.ofBits .f32 0x3F800000#32 = 1 := by
  simp [Ideal.ofBits, Ideal.ieee, -EReal.coe_mul]; norm_num

/-- The host's expansion of the sigmoid, 1 / (1 + exp (−h)) with both ones the f32 word of 1.0, times h, is silu. -/
theorem silu_host (h : Ideal .f32) :
    FloatOps.mulf h (FloatOps.hostDivf (FloatOps.ofBits .f32 0x3F800000#32)
      (FloatOps.addf (FloatOps.ofBits .f32 0x3F800000#32) (FloatOps.hostUnary .exp (FloatOps.hostNegf h)))) = silu h := by
  show h * Ideal.div (Ideal.ofBits .f32 0x3F800000#32) (Ideal.ofBits .f32 0x3F800000#32 + Ideal.exp (-h)) = silu h
  rw [one_word]
  rfl

/-- The kernel's one-operation sigmoid times h is silu. -/
theorem silu_kernel (h : Ideal .f32) : FloatOps.mulf h (FloatOps.logistic h) = silu h := rfl

end Cert.Mlp

end
-- ==== Proof.LibPlainDot.lean ====
/-
  A plain matrix product read at an index.

  For the dimension numbers of an M × K by K × N product (contract the left operand's columns with the right
  operand's rows, no batch axis), the sum over the contraction index that a matmul or a dot_general denotes at the
  ideal values is the familiar one: at row p and column q, the sum over k of l (p, k) · r (k, q). General in M, K, N;
  a program's own record of these dimension numbers is this one up to its proof field.
-/
import Idealize.ShloMosaic.PureOps.Ideal
import Idealize.ShloMosaic.PureOps.Ideal.Laws
import Idealize.ShloMosaic.Lib.ValueIdx

noncomputable section

namespace Idealize.ShloMosaic.PlainDot

open Idealize.ShloMosaic Idealize.ShloMosaic.ValueIdx

variable (M K N : Nat)

theorem contr_rank : (DotDims.plain M K N).contr.rank = 1 := rfl
theorem contr_size : (DotDims.plain M K N).contr.size ⟨0, by rw [contr_rank]; exact Nat.one_pos⟩ = K := rfl

/-- The contraction index of a plain product is its one coordinate, a column of the left operand. -/
abbrev kEquiv : (DotDims.plain M K N).contr.Idx ≃ Fin K := contrEquiv1 (DotDims.plain M K N) K (contr_rank M K N) (contr_size M K N)

/-- The left operand is read at (row of the result, k). -/
theorem lhsIdx_eq (j : (⟨2, ![M, N]⟩ : Shape).Idx) (k : Fin K) :
    (DotDims.plain M K N).lhsIdx j ((kEquiv M K N).symm k) = ix2 (j 0) k := by
  funext a
  apply Fin.ext
  match a with
  | ⟨0, _⟩ => rfl
  | ⟨1, _⟩ =>
    exact ((DotDims.plain M K N).lhsIdx_val_of_single (cl := 1) rfl j _).trans
      (contrEquiv1_symm_val (DotDims.plain M K N) K (contr_rank M K N) (contr_size M K N) k)

/-- The right operand is read at (k, column of the result). -/
theorem rhsIdx_eq (j : (⟨2, ![M, N]⟩ : Shape).Idx) (k : Fin K) :
    (DotDims.plain M K N).rhsIdx j ((kEquiv M K N).symm k) = ix2 k (j 1) := by
  funext a
  apply Fin.ext
  match a with
  | ⟨0, _⟩ =>
    exact ((DotDims.plain M K N).rhsIdx_val_of_single (cr := 0) rfl j _).trans
      (contrEquiv1_symm_val (DotDims.plain M K N) K (contr_rank M K N) (contr_size M K N) k)
  | ⟨1, _⟩ => rfl

/-- The contraction sum of a plain product, over the column index. -/
theorem sum_eq (l : (⟨2, ![M, K]⟩ : Shape).Idx → EReal) (r : (⟨2, ![K, N]⟩ : Shape).Idx → EReal) (j : (⟨2, ![M, N]⟩ : Shape).Idx) :
    (∑ kk : (DotDims.plain M K N).contr.Idx, l ((DotDims.plain M K N).lhsIdx j kk) * r ((DotDims.plain M K N).rhsIdx j kk))
      = ∑ k : Fin K, l (ix2 (j 0) k) * r (ix2 k (j 1)) := by
  rw [← Equiv.sum_comp (kEquiv M K N).symm]
  exact Finset.sum_congr rfl fun k _ =>
    congrArg₂ (· * ·) (congrArg l (lhsIdx_eq M K N j k)) (congrArg r (rhsIdx_eq M K N j k))

variable {φ₁ φ₂ : FTy}

/-- A kernel's matmul into the zero accumulator, at (p, q). -/
theorem matmul_zero_apply (prec : Option ContractPrecision) (l : FVec Ideal ⟨2, ![M, K]⟩ φ₁) (r : FVec Ideal ⟨2, ![K, N]⟩ φ₂)
    (p : Fin M) (q : Fin N) :
    matmul (DotDims.plain M K N) prec l r (constant ⟨2, ![M, N]⟩ .f32 0x00000000#32) (ix2 p q)
      = ∑ k : Fin K, l (ix2 p k) * r (ix2 k q) :=
  (Ideal.matmul_constant_zero_apply (DotDims.plain M K N) prec l r (ix2 p q)).trans (sum_eq M K N l r (ix2 p q))

/-- The host's dot_general, at (p, q). -/
theorem dotGeneral_apply (prec : Option ContractPrecision) (l : FVec Ideal ⟨2, ![M, K]⟩ φ₁) (r : FVec Ideal ⟨2, ![K, N]⟩ φ₂)
    (p : Fin M) (q : Fin N) :
    Host.dotGeneral (DotDims.plain M K N) prec l r (ix2 p q) = ∑ k : Fin K, l (ix2 p k) * r (ix2 k q) :=
  (Ideal.dotGeneral_apply (DotDims.plain M K N) prec _ l r (ix2 p q)).trans (sum_eq M K N l r (ix2 p q))

end Idealize.ShloMosaic.PlainDot

end
-- ==== Proof.LibColumns.lean ====
/-
  Column layouts read at an index.

  The three keepdims forms of a column: a vector of length a cast to an a × 1 column, such a column cast back
  to the vector, and a column broadcast along a new trailing extent b. Each reads the operand at the row; the unit
  coordinate carries no information. General in a and b.
-/
import Idealize.ShloMosaic.Lib.ValueIdx
import Idealize.ShloMosaic.Lib.ValueLayout
import Idealize.ShloMosaic.Lib.Pipeline.Value

noncomputable section

namespace Idealize.ShloMosaic.Columns

open Idealize.ShloMosaic Idealize.ShloMosaic.ValueIdx

variable {α : Type}

/-- A vector cast to a column reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column cast to a vector reads, at i, the column at (i, 0). -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- A column broadcast to b columns reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Columns

end
-- ==== Proof.GateBody.lean ====
/-
  What the velocity-gate kernel's body stores, entry by entry.

  On a block of 5000 nodes the body forms the five gates of node p,
      a_{p,k} = ( Σ_l silu( (Σ_r h_{p,r} · W_{r,l}) + b_l ) · W'_{l,k} ) + b'_k        (k < 5),
  both products on the matrix unit into zero accumulators, and then, with the node's five velocities laid side by side
  in a row of 15 (velocity k in columns 3k, 3k+1, 3k+2), stores
      ((((0 + a_{p,0}·v_{p,q}) + a_{p,1}·v_{p,3+q}) + a_{p,2}·v_{p,6+q}) + a_{p,3}·v_{p,9+q} + a_{p,4}·v_{p,12+q}) + geom_{p,q}.
  Addition of extended reals is associative, so this is 0 + Σ_k a_{p,k}·v_{p,3k+q}, plus geom_{p,q}.
-/
import proofs.«409513_j63608465654304_3_alg».proof.Proof.Gen.KernelIdeal.Skeleton
import proofs.«409513_j63608465654304_3_alg».proof.Proof.Mlp
import proofs.«409513_j63608465654304_3_alg».proof.Proof.LibPlainDot
import proofs.«409513_j63608465654304_3_alg».proof.Proof.LibColumns
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.GateBody

open Cert.KernelIdeal Cert.KernelIdeal.Gen Idealize.ShloMosaic Idealize.ShloMosaic.ValueIdx Idealize.ShloMosaic.Columns

variable (x0 : FVec Ideal S5000x256 .f32) (x1 : FVec Ideal S256x256 .bf16) (x2 : FVec Ideal S1x256 .f32)
  (x3 : FVec Ideal S256x5 .f32) (x4 : FVec Ideal S1x5 .f32) (x5 : FVec Ideal S5000x15 .f32) (x6 : FVec Ideal S5000x3 .f32)

/-- The hidden layer before its activation, on the block. -/
def pre : FVec Ideal S5000x256 .f32 :=
  addf (matmul dot_S5000x256_S256x256_S5000x256_1_0_0_1_n_n none (truncf .bf16 x0 bitsLt_bf16_f32)
      (shapeCast S256x256 x1 shapeCasts_S256x256_S256x256) (constant S5000x256 .f32 0x00000000#32))
    (broadcastTo S5000x256 (shapeCast S1x256 x2 shapeCasts_S1x256_S1x256) broadcasts_S1x256_S5000x256)

theorem pre_at (p : Fin 5000) (l : Fin 256) :
    pre x0 x1 x2 (ix2 p l) = Mlp.hid (fun r => x0 (ix2 p r)) (fun r l => x1 (ix2 r l)) (fun l => x2 (ix2 (0 : Fin 1) l)) l := by
  show matmul dot_S5000x256_S256x256_S5000x256_1_0_0_1_n_n none (truncf .bf16 x0 bitsLt_bf16_f32)
      (shapeCast S256x256 x1 shapeCasts_S256x256_S256x256) (constant S5000x256 .f32 0x00000000#32) (ix2 p l)
    + broadcastTo S5000x256 (shapeCast S1x256 x2 shapeCasts_S1x256_S1x256) broadcasts_S1x256_S5000x256 (ix2 p l)
    = (∑ r : Fin 256, x0 (ix2 p r) * x1 (ix2 r l)) + x2 (ix2 (0 : Fin 1) l)
  refine congrArg₂ (· + ·) ?_ ?_
  · rw [shapeCast_self]
    exact PlainDot.matmul_zero_apply 5000 256 256 none (truncf .bf16 x0 bitsLt_bf16_f32) x1 p l
  · rw [shapeCast_self]
    exact broadcastTo_1b_ab_apply x2 broadcasts_S1x256_S5000x256 p l

/-- The gates' block is the activated hidden layer against the second weight, plus the second bias. -/
theorem gates_eq : k1_pay2 (F := Ideal) x0 x1 x2 x3 x4
    = addf (matmul dot_S5000x256_S256x5_S5000x5_1_0_0_1_n_n none (mulf (pre x0 x1 x2) (logistic (pre x0 x1 x2))) x3 (constant S5000x5 .f32 0x00000000#32))
        (broadcastTo S5000x5 (shapeCast S1x5 x4 shapeCasts_S1x5_S1x5) broadcasts_S1x5_S5000x5) := rfl

/-- Gate k of node p. -/
theorem gates_at (p : Fin 5000) (k : Fin 5) :
    k1_pay2 (F := Ideal) x0 x1 x2 x3 x4 (ix2 p k)
      = Mlp.out (fun r => x0 (ix2 p r)) (fun r l => x1 (ix2 r l)) (fun l => x2 (ix2 (0 : Fin 1) l)) (fun l => x3 (ix2 l k)) (x4 (ix2 (0 : Fin 1) k)) := by
  rw [gates_eq]
  show matmul dot_S5000x256_S256x5_S5000x5_1_0_0_1_n_n none (mulf (pre x0 x1 x2) (logistic (pre x0 x1 x2))) x3 (constant S5000x5 .f32 0x00000000#32) (ix2 p k)
      + broadcastTo S5000x5 (shapeCast S1x5 x4 shapeCasts_S1x5_S1x5) broadcasts_S1x5_S5000x5 (ix2 p k)
    = (∑ l : Fin 256, Mlp.silu (Mlp.hid (fun r => x0 (ix2 p r)) (fun r l => x1 (ix2 r l)) (fun l => x2 (ix2 (0 : Fin 1) l)) l) * x3 (ix2 l k))
      + x4 (ix2 (0 : Fin 1) k)
  refine congrArg₂ (· + ·) ?_ ?_
  · refine (PlainDot.matmul_zero_apply 5000 256 5 none (mulf (pre x0 x1 x2) (logistic (pre x0 x1 x2))) x3 p k).trans ?_
    refine Finset.sum_congr rfl fun l _ => congrArg₂ (· * ·) ?_ rfl
    show pre x0 x1 x2 (ix2 p l) * Ideal.logistic (pre x0 x1 x2 (ix2 p l)) = _
    rw [pre_at]
    rfl
  · rw [shapeCast_self]
    exact broadcastTo_1b_ab_apply x4 broadcasts_S1x5_S5000x5 p k

/-- The column of the flattened velocities that holds coordinate q of velocity k. -/
def col (k : Fin 5) (q : Fin 3) : Fin 15 := ⟨3 * k.val + q.val, by have := k.isLt; have := q.isLt; omega⟩

/-- One term of the unrolled sum: a gate column broadcast over three coordinates times a three-column cut of the velocities. -/
def term (A : FVec Ideal S5000x5 .f32) (V : FVec Ideal S5000x15 .f32) (o o' : Nat)
    (h : S5000x5.Slices ![0, o] S5000x1) (h' : S5000x15.Slices ![0, o'] S5000x3) : FVec Ideal S5000x3 .f32 :=
  mulf (broadcastTo S5000x3 (extractStridedSlice S5000x1 ![0, o] A h) broadcasts_S5000x1_S5000x3) (extractStridedSlice S5000x3 ![0, o'] V h')

theorem term_at (A : FVec Ideal S5000x5 .f32) (V : FVec Ideal S5000x15 .f32) (o o' : Nat)
    (h : S5000x5.Slices ![0, o] S5000x1) (h' : S5000x15.Slices ![0, o'] S5000x3)
    (p : Fin 5000) (q : Fin 3) (k : Fin 5) (k' : Fin 15) (hk : k.val = o + (0 : Fin 1).val) (hk' : k'.val = o' + q.val) :
    term A V o o' h h' (ix2 p q) = A (ix2 p k) * V (ix2 p k') := by
  show broadcastTo S5000x3 (extractStridedSlice S5000x1 ![0, o] A h) broadcasts_S5000x1_S5000x3 (ix2 p q)
      * extractStridedSlice S5000x3 ![0, o'] V h' (ix2 p q) = _
  refine congrArg₂ (· * ·) ?_ ?_
  · refine (broadcastTo_a1_ab_apply _ broadcasts_S5000x1_S5000x3 p q).trans ?_
    exact slice2_axis1_apply o A h p (0 : Fin 1) k hk
  · exact slice2_axis1_apply o' V h' p q k' hk'

/-- The stored block: the five terms added in order from a zero block, then the geometric term. -/
theorem pay_eq : k1_pay1 (F := Ideal) (k1_pay4 x0 x1 x2 x3 x4 x5) (k1_pay5 x0 x1 x2 x3 x4 x5) x6
    = addf (addf (addf (addf (addf (addf (broadcast S5000x3 (Scalar.ofBits .f32 0x00000000#32))
          (term (k1_pay2 x0 x1 x2 x3 x4) (k1_pay3 x5) 0 0 slices_S5000x5_o0_0_S5000x1 slices_S5000x15_o0_0_S5000x3))
          (term (k1_pay2 x0 x1 x2 x3 x4) (k1_pay3 x5) 1 3 slices_S5000x5_o0_1_S5000x1 slices_S5000x15_o0_3_S5000x3))
          (term (k1_pay2 x0 x1 x2 x3 x4) (k1_pay3 x5) 2 6 slices_S5000x5_o0_2_S5000x1 slices_S5000x15_o0_6_S5000x3))
          (term (k1_pay2 x0 x1 x2 x3 x4) (k1_pay3 x5) 3 9 slices_S5000x5_o0_3_S5000x1 slices_S5000x15_o0_9_S5000x3))
          (term (k1_pay2 x0 x1 x2 x3 x4) (k1_pay3 x5) 4 12 slices_S5000x5_o0_4_S5000x1 slices_S5000x15_o0_12_S5000x3))
        (shapeCast S5000x3 x6 shapeCasts_S5000x3_S5000x3) := rfl

theorem vel_eq : k1_pay3 (F := Ideal) x5 = x5 := shapeCast_self x5 shapeCasts_S5000x15_S5000x15

/-- Entry (p, q) of the stored block. -/
theorem pay_at (p : Fin 5000) (q : Fin 3) :
    k1_pay1 (F := Ideal) (k1_pay4 x0 x1 x2 x3 x4 x5) (k1_pay5 x0 x1 x2 x3 x4 x5) x6 (ix2 p q)
      = (Ideal.ofBits .f32 0x00000000#32
          + ∑ k : Fin 5, Mlp.out (fun r => x0 (ix2 p r)) (fun r l => x1 (ix2 r l)) (fun l => x2 (ix2 (0 : Fin 1) l)) (fun l => x3 (ix2 l k)) (x4 (ix2 (0 : Fin 1) k))
              * x5 (ix2 p (col k q)))
        + x6 (ix2 p q) := by
  rw [pay_eq]
  show (((((Ideal.ofBits .f32 0x00000000#32
      + term (k1_pay2 x0 x1 x2 x3 x4) (k1_pay3 x5) 0 0 slices_S5000x5_o0_0_S5000x1 slices_S5000x15_o0_0_S5000x3 (ix2 p q))
      + term (k1_pay2 x0 x1 x2 x3 x4) (k1_pay3 x5) 1 3 slices_S5000x5_o0_1_S5000x1 slices_S5000x15_o0_3_S5000x3 (ix2 p q))
      + term (k1_pay2 x0 x1 x2 x3 x4) (k1_pay3 x5) 2 6 slices_S5000x5_o0_2_S5000x1 slices_S5000x15_o0_6_S5000x3 (ix2 p q))
      + term (k1_pay2 x0 x1 x2 x3 x4) (k1_pay3 x5) 3 9 slices_S5000x5_o0_3_S5000x1 slices_S5000x15_o0_9_S5000x3 (ix2 p q))
      + term (k1_pay2 x0 x1 x2 x3 x4) (k1_pay3 x5) 4 12 slices_S5000x5_o0_4_S5000x1 slices_S5000x15_o0_12_S5000x3 (ix2 p q))
      + shapeCast S5000x3 x6 shapeCasts_S5000x3_S5000x3 (ix2 p q) = _
  rw [term_at _ _ 0 0 _ _ p q (0 : Fin 5) (col 0 q) rfl (by show 3 * 0 + q.val = 0 + q.val; omega),
    term_at _ _ 1 3 _ _ p q (1 : Fin 5) (col 1 q) rfl (by show 3 * 1 + q.val = 3 + q.val; omega),
    term_at _ _ 2 6 _ _ p q (2 : Fin 5) (col 2 q) rfl (by show 3 * 2 + q.val = 6 + q.val; omega),
    term_at _ _ 3 9 _ _ p q (3 : Fin 5) (col 3 q) rfl (by show 3 * 3 + q.val = 9 + q.val; omega),
    term_at _ _ 4 12 _ _ p q (4 : Fin 5) (col 4 q) rfl (by show 3 * 4 + q.val = 12 + q.val; omega)]
  rw [shapeCast_self, vel_eq]
  simp only [gates_at, Fin.sum_univ_five, add_assoc]

end Cert.KernelIdeal.GateBody

end
-- ==== Proof.Entry.lean ====
/-
  What the two regions find in their input arrays.

  Region 0 is entered after the first stretch of host operations: its edge features, the second weight and the
  relative vectors x[src] − x[dst] are those operations' values of the arguments (the relative vectors are exactly the
  reference's own stage, the same gathers of the same indices). Region 1 is entered after region 0 and the second
  stretch: its geometric input is the scatter-mean of region 0's output array over the destination indices — the
  reference's stage of the same name applied to whatever region 0 left — and its velocities are the argument's
  [50000, 5, 3] array read as [50000, 15].
-/
import proofs.«409513_j63608465654304_3_alg».proof.Proof.Gen.KernelIdeal.Frame
import proofs.«409513_j63608465654304_3_alg».proof.Proof.Gen.ReferenceIdeal.Read
import Idealize.ShloMosaic.Lib.StableHlo.Run

set_option maxRecDepth 16384

noncomputable section

namespace Cert.KernelIdeal.Entry

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## Region 0's entry contents -/

theorem edge_feats (c : Dev nD) : V1 m ρ c main_arg1 = (m ((c : Thread nD τ).loc main_arg1)) := by
  show StableHlo.after hostOps0 (W0 m ρ c) (Proc.devRef .tc main_arg1) = _
  after_results
  all_goals rfl

theorem edge_w1 (c : Dev nD) : @Eq (FVec Ideal S256x256 .bf16) (V1 m ρ c main_v19) (truncf (F := Ideal) .bf16 (m ((c : Thread nD τ).loc main_arg5)) bitsLt_bf16_f32) := by
  show StableHlo.after hostOps0 (W0 m ρ c) (Proc.devRef .tc main_v19) = _
  after_results
  all_goals rfl

theorem edge_b1 (c : Dev nD) : (V1 m ρ c main_v20 : FVec Ideal S1x256 .f32) = shapeCast S1x256 ((m ((c : Thread nD τ).loc main_arg6)) : FVec Ideal S256 .f32) shapeCasts_S256_S1x256 := by
  show StableHlo.after hostOps0 (W0 m ρ c) (Proc.devRef .tc main_v20) = _
  after_results
  all_goals rfl

theorem edge_w2 (c : Dev nD) : V1 m ρ c main_arg7 = (m ((c : Thread nD τ).loc main_arg7)) := by
  show StableHlo.after hostOps0 (W0 m ρ c) (Proc.devRef .tc main_arg7) = _
  after_results
  all_goals rfl

theorem edge_b2 (c : Dev nD) : (V1 m ρ c main_v21 : FVec Ideal S1x1 .f32) = shapeCast S1x1 ((m ((c : Thread nD τ).loc main_arg8)) : FVec Ideal S1 .f32) shapeCasts_S1_S1x1 := by
  show StableHlo.after hostOps0 (W0 m ρ c) (Proc.devRef .tc main_v21) = _
  after_results
  all_goals rfl

set_option maxHeartbeats 8000000 in
/-- The relative vectors are the reference's stage of the node positions and the edge index. -/
theorem edge_rel (c : Dev nD) : V1 m ρ c main_v18 = Cert.ReferenceIdeal.Read.val_main_v18 (F := Ideal) (m ((c : Thread nD τ).loc main_arg2)) (m ((c : Thread nD τ).loc main_arg4)) := by
  show StableHlo.after hostOps0 (W0 m ρ c) (Proc.devRef .tc main_v18) = _
  after_results
  all_goals rfl

/-- The destination indices, as the first stretch leaves them. -/
theorem dst_first (c : Dev nD) : W1 m ρ c (Proc.devRef .tc main_v3) = Cert.ReferenceIdeal.Read.val_main_v3 (F := Ideal) (m ((c : Thread nD τ).loc main_arg4)) := by
  show StableHlo.after hostOps0 (W0 m ρ c) (Proc.devRef .tc main_v3) = _
  after_results
  all_goals rfl

/-! ## Buffers region 0 does not write, at its exit -/

theorem exit0_arg (c : Dev nD) (b : Ref sig .tc) (hb : ∀ w, Pipeline.arrRef spec0 w ≠ b)
    (h0 : StableHlo.after hostOps0 (W0 m ρ c) (Proc.devRef .tc b) = W0 m ρ c (Proc.devRef .tc b)) :
    W2 m ρ c (Proc.devRef .tc b) = m ((c : Thread nD τ).loc b) :=
  (W2_of_ne m ρ c b hb).trans h0

theorem exit0_arg0 (c : Dev nD) : W2 m ρ c (Proc.devRef .tc main_arg0) = (m ((c : Thread nD τ).loc main_arg0)) :=
  exit0_arg m ρ c main_arg0 (by decide) (by after_results; all_goals rfl)
theorem exit0_arg3 (c : Dev nD) : W2 m ρ c (Proc.devRef .tc main_arg3) = (m ((c : Thread nD τ).loc main_arg3)) :=
  exit0_arg m ρ c main_arg3 (by decide) (by after_results; all_goals rfl)
theorem exit0_arg9 (c : Dev nD) : W2 m ρ c (Proc.devRef .tc main_arg9) = (m ((c : Thread nD τ).loc main_arg9)) :=
  exit0_arg m ρ c main_arg9 (by decide) (by after_results; all_goals rfl)
theorem exit0_arg10 (c : Dev nD) : W2 m ρ c (Proc.devRef .tc main_arg10) = (m ((c : Thread nD τ).loc main_arg10)) :=
  exit0_arg m ρ c main_arg10 (by decide) (by after_results; all_goals rfl)
theorem exit0_arg11 (c : Dev nD) : W2 m ρ c (Proc.devRef .tc main_arg11) = (m ((c : Thread nD τ).loc main_arg11)) :=
  exit0_arg m ρ c main_arg11 (by decide) (by after_results; all_goals rfl)
theorem exit0_arg12 (c : Dev nD) : W2 m ρ c (Proc.devRef .tc main_arg12) = (m ((c : Thread nD τ).loc main_arg12)) :=
  exit0_arg m ρ c main_arg12 (by decide) (by after_results; all_goals rfl)
theorem exit0_dst (c : Dev nD) : W2 m ρ c (Proc.devRef .tc main_v3) = Cert.ReferenceIdeal.Read.val_main_v3 (F := Ideal) (m ((c : Thread nD τ).loc main_arg4)) :=
  (W2_of_ne m ρ c main_v3 (by decide)).trans (dst_first m ρ c)

/-! ## Region 1's entry contents -/

theorem gate_feats (c : Dev nD) : V3 m ρ c main_arg0 = (m ((c : Thread nD τ).loc main_arg0)) := by
  show StableHlo.after hostOps1 (W2 m ρ c) (Proc.devRef .tc main_arg0) = _
  after_results
  exact exit0_arg0 m ρ c

theorem gate_w1 (c : Dev nD) : @Eq (FVec Ideal S256x256 .bf16) (V3 m ρ c main_v36) (truncf (F := Ideal) .bf16 (m ((c : Thread nD τ).loc main_arg9)) bitsLt_bf16_f32) := by
  show StableHlo.after hostOps1 (W2 m ρ c) (Proc.devRef .tc main_v36) = _
  after_results
  rw [exit0_arg9]
  all_goals rfl

theorem gate_b1 (c : Dev nD) : (V3 m ρ c main_v37 : FVec Ideal S1x256 .f32) = shapeCast S1x256 ((m ((c : Thread nD τ).loc main_arg10)) : FVec Ideal S256 .f32) shapeCasts_S256_S1x256 := by
  show StableHlo.after hostOps1 (W2 m ρ c) (Proc.devRef .tc main_v37) = _
  after_results
  rw [exit0_arg10]
  all_goals rfl

theorem gate_w2 (c : Dev nD) : V3 m ρ c main_arg11 = (m ((c : Thread nD τ).loc main_arg11)) := by
  show StableHlo.after hostOps1 (W2 m ρ c) (Proc.devRef .tc main_arg11) = _
  after_results
  exact exit0_arg11 m ρ c

theorem gate_b2 (c : Dev nD) : (V3 m ρ c main_v38 : FVec Ideal S1x5 .f32) = shapeCast S1x5 ((m ((c : Thread nD τ).loc main_arg12)) : FVec Ideal S5 .f32) shapeCasts_S5_S1x5 := by
  show StableHlo.after hostOps1 (W2 m ρ c) (Proc.devRef .tc main_v38) = _
  after_results
  rw [exit0_arg12]
  all_goals rfl

theorem gate_vel (c : Dev nD) : (V3 m ρ c main_v35 : FVec Ideal S50000x15 .f32) = shapeCast S50000x15 ((m ((c : Thread nD τ).loc main_arg3)) : FVec Ideal S50000x5x3 .f32) shapeCasts_S50000x5x3_S50000x15 := by
  show StableHlo.after hostOps1 (W2 m ρ c) (Proc.devRef .tc main_v35) = _
  after_results
  rw [exit0_arg3]
  all_goals rfl

set_option maxHeartbeats 8000000 in
/-- The geometric input: the reference's scatter-mean stage, once region 0's output array is the reference's
    per-edge messages. -/
theorem gate_geom (c : Dev nD)
    (hmsg : (dat0 (V1 m ρ) c).arrAt 6 cfg0.N
      = Cert.ReferenceIdeal.Read.val_main_v29 (F := Ideal) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8))) :
    V3 m ρ c main_v34
      = Cert.ReferenceIdeal.Read.val_main_v41 (F := Ideal) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) := by
  have h22 : W2 m ρ c (Proc.devRef .tc main_v22)
      = Cert.ReferenceIdeal.Read.val_main_v29 (F := Ideal) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) :=
    (W2_arr m ρ c 6).trans hmsg
  show StableHlo.after hostOps1 (W2 m ρ c) (Proc.devRef .tc main_v34) = _
  after_results
  rw [h22, exit0_dst]
  rfl

end Cert.KernelIdeal.Entry

end
-- ==== Proof.EdgeBody.lean ====
/-
  What the edge kernel's body stores, entry by entry.

  On a block of 8000 edges the body forms, for edge p, the perceptron's gate
      g_p = ( Σ_l silu( (Σ_r m_{p,r} · W_{r,l}) + b_l ) · w_l ) + b'
  (the 256 × 256 product on the matrix unit into a zero accumulator, the 256 → 1 product as a lane sum of
  elementwise products against the second weight's one column laid along the lanes) and stores rel_{p,q} · g_p.
  At the exact values the narrowing of m and W to bf16 is the identity, so entry (p, q) of the stored block is
  rel_{p,q} times the shared function `Mlp.out` of row p of m.
-/
import proofs.«409513_j63608465654304_3_alg».proof.Proof.Gen.KernelIdeal.Skeleton
import proofs.«409513_j63608465654304_3_alg».proof.Proof.Mlp
import proofs.«409513_j63608465654304_3_alg».proof.Proof.LibPlainDot
import proofs.«409513_j63608465654304_3_alg».proof.Proof.LibColumns
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.EdgeBody

open Cert.KernelIdeal Cert.KernelIdeal.Gen Idealize.ShloMosaic Idealize.ShloMosaic.ValueIdx Idealize.ShloMosaic.Columns

variable (x0 : FVec Ideal S8000x256 .f32) (x1 : FVec Ideal S256x256 .bf16) (x2 : FVec Ideal S1x256 .f32)
  (x3 : FVec Ideal S256x1 .f32) (x4 : FVec Ideal S1x1 .f32) (x5 : FVec Ideal S8000x3 .f32)

/-- The hidden layer before its activation, on the block. -/
def pre : FVec Ideal S8000x256 .f32 :=
  addf (matmul dot_S8000x256_S256x256_S8000x256_1_0_0_1_n_n none (truncf .bf16 x0 bitsLt_bf16_f32)
      (shapeCast S256x256 x1 shapeCasts_S256x256_S256x256) (constant S8000x256 .f32 0x00000000#32))
    (broadcastTo S8000x256 (shapeCast S1x256 x2 shapeCasts_S1x256_S1x256) broadcasts_S1x256_S8000x256)

/-- Entry (p, l) of the hidden layer: row p of the block against column l of the first weight, plus bias l. -/
theorem pre_at (p : Fin 8000) (l : Fin 256) :
    pre x0 x1 x2 (ix2 p l) = Mlp.hid (fun r => x0 (ix2 p r)) (fun r l => x1 (ix2 r l)) (fun l => x2 (ix2 (0 : Fin 1) l)) l := by
  show matmul dot_S8000x256_S256x256_S8000x256_1_0_0_1_n_n none (truncf .bf16 x0 bitsLt_bf16_f32)
      (shapeCast S256x256 x1 shapeCasts_S256x256_S256x256) (constant S8000x256 .f32 0x00000000#32) (ix2 p l)
    + broadcastTo S8000x256 (shapeCast S1x256 x2 shapeCasts_S1x256_S1x256) broadcasts_S1x256_S8000x256 (ix2 p l)
    = (∑ r : Fin 256, x0 (ix2 p r) * x1 (ix2 r l)) + x2 (ix2 (0 : Fin 1) l)
  refine congrArg₂ (· + ·) ?_ ?_
  · rw [shapeCast_self]
    exact PlainDot.matmul_zero_apply 8000 256 256 none (truncf .bf16 x0 bitsLt_bf16_f32) x1 p l
  · rw [shapeCast_self]
    exact broadcastTo_1b_ab_apply x2 broadcasts_S1x256_S8000x256 p l

/-- The activated hidden layer against the second weight's column, laid along the lanes. -/
def act : FVec Ideal S8000x256 .f32 :=
  mulf (mulf (pre x0 x1 x2) (logistic (pre x0 x1 x2)))
    (broadcastTo S8000x256 (shapeCast S1x256 (shapeCast S256 x3 shapeCasts_S256x1_S256) shapeCasts_S256_S1x256) broadcasts_S1x256_S8000x256)

theorem act_at (p : Fin 8000) (l : Fin 256) :
    act x0 x1 x2 x3 (ix2 p l)
      = Mlp.silu (Mlp.hid (fun r => x0 (ix2 p r)) (fun r l => x1 (ix2 r l)) (fun l => x2 (ix2 (0 : Fin 1) l)) l) * x3 (ix2 l (0 : Fin 1)) := by
  show (pre x0 x1 x2 (ix2 p l) * Ideal.logistic (pre x0 x1 x2 (ix2 p l)))
      * broadcastTo S8000x256 (shapeCast S1x256 (shapeCast S256 x3 shapeCasts_S256x1_S256) shapeCasts_S256_S1x256) broadcasts_S1x256_S8000x256 (ix2 p l)
    = _
  rw [pre_at]
  refine congrArg₂ (· * ·) rfl ?_
  refine (broadcastTo_1b_ab_apply _ broadcasts_S1x256_S8000x256 p l).trans ?_
  refine (shapeCast_a_1a_apply _ shapeCasts_S256_S1x256 (0 : Fin 1) l).trans ?_
  exact shapeCast_a1_a_apply x3 shapeCasts_S256x1_S256 l

/-- The lane sum of a row of `act`. -/
theorem lane_sum (src : FVec Ideal S8000x256 .f32) (hφ : FKind.Formats .f32)
    (hacc : (0x00000000#32 : BitVec 32) = FKind.add.neutral .f32 hφ) (p : Fin 8000) :
    multiReduction .add [1] S8000 src 0x00000000#32 reduces_S8000x256_S8000 hφ hacc (ix1 p) = ∑ l : Fin 256, src (ix2 p l) := by
  refine (Ideal.multiReduction_add_single src 0x00000000#32 reduces_S8000x256_S8000 hφ hacc (ix1 p)).trans ?_
  refine Finset.sum_congr rfl fun l _ => congrArg src ?_
  funext a
  apply Fin.ext
  match a with
  | ⟨0, _⟩ => rfl
  | ⟨1, _⟩ => rfl

/-- The gate column: the lane sums plus the second bias. -/
def gate : FVec Ideal S8000x1 .f32 :=
  addf (shapeCast S8000x1 (multiReduction .add [1] S8000 (act x0 x1 x2 x3) 0x00000000#32 reduces_S8000x256_S8000 (.inl rfl) rfl) shapeCasts_S8000_S8000x1)
    (broadcastTo S8000x1 (shapeCast S1x1 x4 shapeCasts_S1x1_S1x1) broadcasts_S1x1_S8000x1)

theorem gate_at (p : Fin 8000) (u : Fin 1) :
    gate x0 x1 x2 x3 x4 (ix2 p u)
      = Mlp.out (fun r => x0 (ix2 p r)) (fun r l => x1 (ix2 r l)) (fun l => x2 (ix2 (0 : Fin 1) l)) (fun l => x3 (ix2 l (0 : Fin 1))) (x4 (ix2 (0 : Fin 1) (0 : Fin 1))) := by
  show shapeCast S8000x1 (multiReduction .add [1] S8000 (act x0 x1 x2 x3) 0x00000000#32 reduces_S8000x256_S8000 (.inl rfl) rfl) shapeCasts_S8000_S8000x1 (ix2 p u)
      + broadcastTo S8000x1 (shapeCast S1x1 x4 shapeCasts_S1x1_S1x1) broadcasts_S1x1_S8000x1 (ix2 p u)
    = (∑ l : Fin 256, Mlp.silu (Mlp.hid (fun r => x0 (ix2 p r)) (fun r l => x1 (ix2 r l)) (fun l => x2 (ix2 (0 : Fin 1) l)) l) * x3 (ix2 l (0 : Fin 1)))
      + x4 (ix2 (0 : Fin 1) (0 : Fin 1))
  refine congrArg₂ (· + ·) ?_ ?_
  · refine (shapeCast_a_a1_apply _ shapeCasts_S8000_S8000x1 p u).trans ?_
    refine (lane_sum (act x0 x1 x2 x3) (.inl rfl) rfl p).trans ?_
    exact Finset.sum_congr rfl fun l _ => act_at x0 x1 x2 x3 p l
  · rw [shapeCast_self]
    have hu : u = (0 : Fin 1) := Subsingleton.elim _ _
    rw [hu]
    exact broadcastTo_1b_ab_apply x4 broadcasts_S1x1_S8000x1 p (0 : Fin 1)

/-- The stored block is the relative vectors times the gate column broadcast over the three coordinates. -/
theorem pay_eq : k0_pay1 (F := Ideal) x0 x1 x2 x3 x4 x5
    = mulf (shapeCast S8000x3 x5 shapeCasts_S8000x3_S8000x3) (broadcastTo S8000x3 (gate x0 x1 x2 x3 x4) broadcasts_S8000x1_S8000x3) := rfl

/-- Entry (p, q) of the stored block. -/
theorem pay_at (p : Fin 8000) (q : Fin 3) :
    k0_pay1 (F := Ideal) x0 x1 x2 x3 x4 x5 (ix2 p q)
      = x5 (ix2 p q) * Mlp.out (fun r => x0 (ix2 p r)) (fun r l => x1 (ix2 r l)) (fun l => x2 (ix2 (0 : Fin 1) l)) (fun l => x3 (ix2 l (0 : Fin 1))) (x4 (ix2 (0 : Fin 1) (0 : Fin 1))) := by
  rw [pay_eq]
  show shapeCast S8000x3 x5 shapeCasts_S8000x3_S8000x3 (ix2 p q) * broadcastTo S8000x3 (gate x0 x1 x2 x3 x4) broadcasts_S8000x1_S8000x3 (ix2 p q) = _
  rw [shapeCast_self]
  refine congrArg₂ (· * ·) rfl ?_
  refine (broadcastTo_a1_ab_apply _ broadcasts_S8000x1_S8000x3 p q).trans ?_
  exact gate_at x0 x1 x2 x3 x4 p (0 : Fin 1)

end Cert.KernelIdeal.EdgeBody

end
-- ==== Proof.RefValue.lean ====
/-
  The reference's stages read at an index.

  The reference computes both perceptrons on the host: a dot_general with the first weight, the bias added along
  the rows, silu spelt as h · (1 / (1 + exp (−h))), a dot_general with the second weight, the second bias. Read at an
  index through the generated stage lemmas, an edge's weight and a node's k-th gate are the shared function
  `Mlp.out` of the corresponding row; a message is the relative vector's coordinate times the edge's weight; a result
  entry is 0 + Σ_k gate_k · velocity_{k,q}, plus the scatter-mean stage at that entry.
-/
import proofs.«409513_j63608465654304_3_alg».proof.Proof.Gen.ReferenceIdeal.Run
import proofs.«409513_j63608465654304_3_alg».proof.Proof.Gen.ReferenceIdeal.Read
import proofs.«409513_j63608465654304_3_alg».proof.Proof.Mlp
import Idealize.ShloMosaic.Lib.ValueIdx

noncomputable section

namespace Cert.ReferenceIdeal.RefValue

open Cert.ReferenceIdeal Cert.ReferenceIdeal.Read Idealize.ShloMosaic Idealize.ShloMosaic.ValueIdx

/-- Two rank-2 indices with the same coordinates. -/
local macro "idx2" : tactic =>
  `(tactic| (funext a; apply Fin.ext; match a with | ⟨0, _⟩ => rfl | ⟨1, _⟩ => rfl))
local macro "idx1" : tactic =>
  `(tactic| (funext a; apply Fin.ext; match a with | ⟨0, _⟩ => rfl))
local macro "idx3" : tactic =>
  `(tactic| (funext a; apply Fin.ext; match a with | ⟨0, _⟩ => rfl | ⟨1, _⟩ => rfl | ⟨2, _⟩ => rfl))

/-! ## The edge-weight perceptron -/

section Edge

variable (x1 : (⟨S800000x256, .f32⟩ : BufTy).Contents (Elt Ideal)) (x5 : (⟨S256x256, .f32⟩ : BufTy).Contents (Elt Ideal)) (x6 : (⟨S256, .f32⟩ : BufTy).Contents (Elt Ideal))
  (x7 : (⟨S256x1, .f32⟩ : BufTy).Contents (Elt Ideal)) (x8 : (⟨S1, .f32⟩ : BufTy).Contents (Elt Ideal))

/-- The hidden layer of edge e before its activation. -/
theorem edge_hidden (e : Fin 800000) (l : Fin 256) :
    val_main_v22 (F := Ideal) x1 x5 x6 (ix2 e l)
      = Mlp.hid (fun r => x1 (ix2 e r)) (fun r l => x5 (ix2 r l)) (fun l => x6 (ix1 l)) l := by
  rw [val_main_v22_apply, val_main_v19_apply, val_main_v21_apply, val_main_v20_apply]
  show (∑ k : Fin 256, x1 (lidx_main_v19 (ix2 e l) k) * x5 (ridx_main_v19 (ix2 e l) k)) + x6 (idx_main_v20 (idx_main_v21 (ix2 e l)))
    = (∑ r : Fin 256, x1 (ix2 e r) * x5 (ix2 r l)) + x6 (ix1 l)
  refine congrArg₂ (· + ·) (Finset.sum_congr rfl fun k _ => congrArg₂ (· * ·) (congrArg x1 ?_) (congrArg x5 ?_)) (congrArg x6 ?_)
  · idx2
  · idx2
  · idx1

/-- The activated hidden layer: the host's spelling of silu. -/
theorem edge_act (e : Fin 800000) (l : Fin 256) :
    val_main_v23 (F := Ideal) x1 x5 x6 (ix2 e l)
      = Mlp.silu (Mlp.hid (fun r => x1 (ix2 e r)) (fun r l => x5 (ix2 r l)) (fun l => x6 (ix1 l)) l) := by
  rw [val_main_v23_apply, val_main_call0_v5_apply, val_main_call0_v4_apply, val_main_call0_cst_0_apply,
    val_main_call0_v3_apply, val_main_call0_v2_apply, val_main_call0_cst_apply, val_main_call0_v1_apply,
    val_main_call0_v0_apply, Mlp.silu_host, edge_hidden]

/-- The weight of edge e. -/
theorem edge_weight (e : Fin 800000) (u : Fin 1) :
    val_main_v27 (F := Ideal) x1 x5 x6 x7 x8 (ix2 e u)
      = Mlp.out (fun r => x1 (ix2 e r)) (fun r l => x5 (ix2 r l)) (fun l => x6 (ix1 l)) (fun l => x7 (ix2 l (0 : Fin 1))) (x8 (ix1 (0 : Fin 1))) := by
  have hu : u = (0 : Fin 1) := Subsingleton.elim _ _
  subst hu
  rw [val_main_v27_apply, val_main_v24_apply, val_main_v26_apply, val_main_v25_apply]
  show (∑ k : Fin 256, val_main_v23 (F := Ideal) x1 x5 x6 (lidx_main_v24 (ix2 e (0 : Fin 1)) k) * x7 (ridx_main_v24 (ix2 e (0 : Fin 1)) k))
      + x8 (idx_main_v25 (idx_main_v26 (ix2 e (0 : Fin 1))))
    = (∑ l : Fin 256, Mlp.silu (Mlp.hid (fun r => x1 (ix2 e r)) (fun r l => x5 (ix2 r l)) (fun l => x6 (ix1 l)) l) * x7 (ix2 l (0 : Fin 1)))
      + x8 (ix1 (0 : Fin 1))
  refine congrArg₂ (· + ·) (Finset.sum_congr rfl fun k _ => congrArg₂ (· * ·) ?_ (congrArg x7 ?_)) (congrArg x8 ?_)
  · rw [show lidx_main_v24 (ix2 e (0 : Fin 1)) k = ix2 e k from by idx2]
    exact edge_act x1 x5 x6 e k
  · idx2
  · idx1

variable (x2 : (⟨S50000x3, .f32⟩ : BufTy).Contents (Elt Ideal)) (x4 : (⟨S2x800000, .i32⟩ : BufTy).Contents (Elt Ideal))

/-- The message of edge e, coordinate q: the relative vector's coordinate times the edge's weight. -/
theorem message (e : Fin 800000) (q : Fin 3) :
    val_main_v29 (F := Ideal) x1 x2 x4 x5 x6 x7 x8 (ix2 e q)
      = val_main_v18 (F := Ideal) x2 x4 (ix2 e q)
        * Mlp.out (fun r => x1 (ix2 e r)) (fun r l => x5 (ix2 r l)) (fun l => x6 (ix1 l)) (fun l => x7 (ix2 l (0 : Fin 1))) (x8 (ix1 (0 : Fin 1))) := by
  rw [val_main_v29_apply, val_main_v28_apply]
  show val_main_v18 (F := Ideal) x2 x4 (ix2 e q) * val_main_v27 (F := Ideal) x1 x5 x6 x7 x8 (idx_main_v28 (ix2 e q)) = _
  rw [show idx_main_v28 (ix2 e q) = ix2 e (0 : Fin 1) from by idx2, edge_weight]

end Edge

/-! ## The velocity-gate perceptron and the result -/

section Gate

variable (x0 : (⟨S50000x256, .f32⟩ : BufTy).Contents (Elt Ideal)) (x9 : (⟨S256x256, .f32⟩ : BufTy).Contents (Elt Ideal)) (x10 : (⟨S256, .f32⟩ : BufTy).Contents (Elt Ideal))
  (x11 : (⟨S256x5, .f32⟩ : BufTy).Contents (Elt Ideal)) (x12 : (⟨S5, .f32⟩ : BufTy).Contents (Elt Ideal)) (x3 : (⟨S50000x5x3, .f32⟩ : BufTy).Contents (Elt Ideal))

theorem gate_hidden (n : Fin 50000) (l : Fin 256) :
    val_main_v45 (F := Ideal) x0 x9 x10 (ix2 n l)
      = Mlp.hid (fun r => x0 (ix2 n r)) (fun r l => x9 (ix2 r l)) (fun l => x10 (ix1 l)) l := by
  rw [val_main_v45_apply, val_main_v42_apply, val_main_v44_apply, val_main_v43_apply]
  show (∑ k : Fin 256, x0 (lidx_main_v42 (ix2 n l) k) * x9 (ridx_main_v42 (ix2 n l) k)) + x10 (idx_main_v43 (idx_main_v44 (ix2 n l)))
    = (∑ r : Fin 256, x0 (ix2 n r) * x9 (ix2 r l)) + x10 (ix1 l)
  refine congrArg₂ (· + ·) (Finset.sum_congr rfl fun k _ => congrArg₂ (· * ·) (congrArg x0 ?_) (congrArg x9 ?_)) (congrArg x10 ?_)
  · idx2
  · idx2
  · idx1

theorem gate_act (n : Fin 50000) (l : Fin 256) :
    val_main_v46 (F := Ideal) x0 x9 x10 (ix2 n l)
      = Mlp.silu (Mlp.hid (fun r => x0 (ix2 n r)) (fun r l => x9 (ix2 r l)) (fun l => x10 (ix1 l)) l) := by
  rw [val_main_v46_apply, val_main_call1_v5_apply, val_main_call1_v4_apply, val_main_call1_cst_0_apply,
    val_main_call1_v3_apply, val_main_call1_v2_apply, val_main_call1_cst_apply, val_main_call1_v1_apply,
    val_main_call1_v0_apply, Mlp.silu_host, gate_hidden]

/-- Gate k of node n. -/
theorem gate (n : Fin 50000) (k : Fin 5) :
    val_main_v50 (F := Ideal) x0 x9 x10 x11 x12 (ix2 n k)
      = Mlp.out (fun r => x0 (ix2 n r)) (fun r l => x9 (ix2 r l)) (fun l => x10 (ix1 l)) (fun l => x11 (ix2 l k)) (x12 (ix1 k)) := by
  rw [val_main_v50_apply, val_main_v47_apply, val_main_v49_apply, val_main_v48_apply]
  show (∑ j : Fin 256, val_main_v46 (F := Ideal) x0 x9 x10 (lidx_main_v47 (ix2 n k) j) * x11 (ridx_main_v47 (ix2 n k) j))
      + x12 (idx_main_v48 (idx_main_v49 (ix2 n k)))
    = (∑ l : Fin 256, Mlp.silu (Mlp.hid (fun r => x0 (ix2 n r)) (fun r l => x9 (ix2 r l)) (fun l => x10 (ix1 l)) l) * x11 (ix2 l k))
      + x12 (ix1 k)
  refine congrArg₂ (· + ·) (Finset.sum_congr rfl fun j _ => congrArg₂ (· * ·) ?_ (congrArg x11 ?_)) (congrArg x12 ?_)
  · rw [show lidx_main_v47 (ix2 n k) j = ix2 n j from by idx2]
    exact gate_act x0 x9 x10 n j
  · idx2
  · idx1

/-- The gated velocities of node n, coordinate q: the host's sum over the five velocities from its initial value. -/
theorem combo (n : Fin 50000) (q : Fin 3) :
    val_main_v54 (F := Ideal) x0 x3 x9 x10 x11 x12 (ix2 n q)
      = Ideal.ofBits .f32 0x00000000#32
        + ∑ k : Fin 5, Mlp.out (fun r => x0 (ix2 n r)) (fun r l => x9 (ix2 r l)) (fun l => x10 (ix1 l)) (fun l => x11 (ix2 l k)) (x12 (ix1 k))
            * x3 (ix3 n k q) := by
  rw [val_main_v54_apply]
  refine congrArg₂ (· + ·) rfl (Finset.sum_congr rfl fun k _ => ?_)
  rw [show idx_main_v54 (ix2 n q) k = ix3 n k q from by idx3, val_main_v53_apply, val_main_v52_apply, val_main_v51_apply]
  show val_main_v50 (F := Ideal) x0 x9 x10 x11 x12 (idx_main_v51 (idx_main_v52 (ix3 n k q))) * x3 (ix3 n k q) = _
  rw [show idx_main_v51 (idx_main_v52 (ix3 n k q)) = ix2 n k from by idx2, gate]

end Gate

end Cert.ReferenceIdeal.RefValue

end
-- ==== Proof.EdgeRegion.lean ====
/-
  Region 0's output array: the per-edge messages.

  The grid has 100 points; point t stages rows 8000·t … 8000·t + 7999 of the edge features and of the relative
  vectors, and the two weights and two biases whole, and writes back rows 8000·t … 8000·t + 7999 of the output.
  Entry (p, q) of what point t writes is the body's entry (p, q) of those blocks, which is the reference's message
  of edge e = 8000·t + p at coordinate q: the same relative vector, the same row of features, the same weights.
  The hundred blocks tile the 800000 rows, so the array ends as the reference's message stage: a block's
  coordinate is index × size + offset, an index is in a block when its coordinates are within the block's bounds, and
  the point that covers row i is i / 8000.
-/
import proofs.«409513_j63608465654304_3_alg».proof.Proof.Gen.KernelIdeal.Frame
import proofs.«409513_j63608465654304_3_alg».proof.Proof.EdgeBody
import proofs.«409513_j63608465654304_3_alg».proof.Proof.Entry
import proofs.«409513_j63608465654304_3_alg».proof.Proof.RefValue
import Idealize.ShloMosaic.Lib.Pipeline.Value
import Idealize.ShloMosaic.Lib.ValueLayout

set_option maxRecDepth 16384

noncomputable section

namespace Cert.KernelIdeal.EdgeRegion

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The index maps over the grid: the row-blocked windows (features, relative vectors, output) sit at block (t, 0), the
    weights and biases at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-! ## The input blocks at a point, read off the arguments -/

abbrev featBlk (c : Dev nD) (t : Fin cfg0.N) : FVec Ideal S8000x256 .f32 := iblk0 (V1 m ρ) c 0 t
abbrev w1Blk (c : Dev nD) (t : Fin cfg0.N) : FVec Ideal S256x256 .bf16 := iblk0 (V1 m ρ) c 1 t
abbrev b1Blk (c : Dev nD) (t : Fin cfg0.N) : FVec Ideal S1x256 .f32 := iblk0 (V1 m ρ) c 2 t
abbrev w2Blk (c : Dev nD) (t : Fin cfg0.N) : FVec Ideal S256x1 .f32 := iblk0 (V1 m ρ) c 3 t
abbrev b2Blk (c : Dev nD) (t : Fin cfg0.N) : FVec Ideal S1x1 .f32 := iblk0 (V1 m ρ) c 4 t
abbrev relBlk (c : Dev nD) (t : Fin cfg0.N) : FVec Ideal S8000x3 .f32 := iblk0 (V1 m ρ) c 5 t

theorem featBlk_at (c : Dev nD) (t : Fin cfg0.N) (p : Fin 8000) (r : Fin 256) (e : Fin 800000) (he : e.val = t.val * 8000 + p.val) :
    featBlk m ρ c t (ix2 p r) = ((m ((c : Thread nD τ).loc main_arg1)) : FVec Ideal S800000x256 .f32) (ix2 e r) := by
  obtain ⟨e0, e1, -⟩ := idx_facts t
  show V1 m ρ c main_arg1 (((cfg0.win 0).blk t).view.emb (ix2 p r)) = _
  rw [Entry.edge_feats]
  refine congrArg _ ?_
  funext a; apply Fin.ext
  match a with
  | ⟨0, _⟩ => show win0_0.index t (0 : Fin 2) * 8000 + 1 * p.val = e.val; omega
  | ⟨1, _⟩ => show win0_0.index t (1 : Fin 2) * 256 + 1 * r.val = r.val; omega

theorem w1Blk_at (c : Dev nD) (t : Fin cfg0.N) (r l : Fin 256) :
    w1Blk m ρ c t (ix2 r l) = ((m ((c : Thread nD τ).loc main_arg5)) : FVec Ideal S256x256 .f32) (ix2 r l) := by
  obtain ⟨-, -, e0, e1, -⟩ := idx_facts t
  show (V1 m ρ c main_v19 : FVec Ideal S256x256 .bf16) (((cfg0.win 1).blk t).view.emb (ix2 r l)) = _
  rw [Entry.edge_w1]
  show ((m ((c : Thread nD τ).loc main_arg5)) : FVec Ideal S256x256 .f32) _ = _
  refine congrArg _ ?_
  funext a; apply Fin.ext
  match a with
  | ⟨0, _⟩ => show win0_1.index t (0 : Fin 2) * 256 + 1 * r.val = r.val; omega
  | ⟨1, _⟩ => show win0_1.index t (1 : Fin 2) * 256 + 1 * l.val = l.val; omega

theorem b1Blk_at (c : Dev nD) (t : Fin cfg0.N) (l : Fin 256) :
    b1Blk m ρ c t (ix2 (0 : Fin 1) l) = ((m ((c : Thread nD τ).loc main_arg6)) : FVec Ideal S256 .f32) (ix1 l) := by
  obtain ⟨-, -, -, -, e0, e1, -⟩ := idx_facts t
  show (V1 m ρ c main_v20 : FVec Ideal S1x256 .f32) (((cfg0.win 2).blk t).view.emb (ix2 (0 : Fin 1) l)) = _
  rw [Entry.edge_b1]
  refine Eq.trans (congrArg (shapeCast S1x256 ((m ((c : Thread nD τ).loc main_arg6)) : FVec Ideal S256 .f32) shapeCasts_S256_S1x256) ?_) (shapeCast_a_1a_apply ((m ((c : Thread nD τ).loc main_arg6)) : FVec Ideal S256 .f32) shapeCasts_S256_S1x256 (0 : Fin 1) l)
  funext a; apply Fin.ext
  match a with
  | ⟨0, _⟩ => show win0_2.index t (0 : Fin 2) * 1 + 1 * 0 = 0; omega
  | ⟨1, _⟩ => show win0_2.index t (1 : Fin 2) * 256 + 1 * l.val = l.val; omega

theorem w2Blk_at (c : Dev nD) (t : Fin cfg0.N) (l : Fin 256) :
    w2Blk m ρ c t (ix2 l (0 : Fin 1)) = ((m ((c : Thread nD τ).loc main_arg7)) : FVec Ideal S256x1 .f32) (ix2 l (0 : Fin 1)) := by
  obtain ⟨-, -, -, -, -, -, e0, e1, -⟩ := idx_facts t
  show V1 m ρ c main_arg7 (((cfg0.win 3).blk t).view.emb (ix2 l (0 : Fin 1))) = _
  rw [Entry.edge_w2]
  refine congrArg _ ?_
  funext a; apply Fin.ext
  match a with
  | ⟨0, _⟩ => show win0_3.index t (0 : Fin 2) * 256 + 1 * l.val = l.val; omega
  | ⟨1, _⟩ => show win0_3.index t (1 : Fin 2) * 1 + 1 * 0 = 0; omega

theorem b2Blk_at (c : Dev nD) (t : Fin cfg0.N) :
    b2Blk m ρ c t (ix2 (0 : Fin 1) (0 : Fin 1)) = ((m ((c : Thread nD τ).loc main_arg8)) : FVec Ideal S1 .f32) (ix1 (0 : Fin 1)) := by
  obtain ⟨-, -, -, -, -, -, -, -, e0, e1, -⟩ := idx_facts t
  show (V1 m ρ c main_v21 : FVec Ideal S1x1 .f32) (((cfg0.win 4).blk t).view.emb (ix2 (0 : Fin 1) (0 : Fin 1))) = _
  rw [Entry.edge_b2]
  refine Eq.trans (congrArg (shapeCast S1x1 ((m ((c : Thread nD τ).loc main_arg8)) : FVec Ideal S1 .f32) shapeCasts_S1_S1x1) ?_) (shapeCast_a_1a_apply ((m ((c : Thread nD τ).loc main_arg8)) : FVec Ideal S1 .f32) shapeCasts_S1_S1x1 (0 : Fin 1) (0 : Fin 1))
  funext a; apply Fin.ext
  match a with
  | ⟨0, _⟩ => show win0_4.index t (0 : Fin 2) * 1 + 1 * 0 = 0; omega
  | ⟨1, _⟩ => show win0_4.index t (1 : Fin 2) * 1 + 1 * 0 = 0; omega

theorem relBlk_at (c : Dev nD) (t : Fin cfg0.N) (p : Fin 8000) (q : Fin 3) (e : Fin 800000) (he : e.val = t.val * 8000 + p.val) :
    relBlk m ρ c t (ix2 p q) = Cert.ReferenceIdeal.Read.val_main_v18 (F := Ideal) (m ((c : Thread nD τ).loc main_arg2)) (m ((c : Thread nD τ).loc main_arg4)) (ix2 e q) := by
  obtain ⟨-, -, -, -, -, -, -, -, -, -, e0, e1, -⟩ := idx_facts t
  show V1 m ρ c main_v18 (((cfg0.win 5).blk t).view.emb (ix2 p q)) = _
  rw [Entry.edge_rel]
  refine congrArg _ ?_
  funext a; apply Fin.ext
  match a with
  | ⟨0, _⟩ => show win0_5.index t (0 : Fin 2) * 8000 + 1 * p.val = e.val; omega
  | ⟨1, _⟩ => show win0_5.index t (1 : Fin 2) * 3 + 1 * q.val = q.val; omega

/-! ## What a point writes back, the cover, the array -/

/-- The reference's message stage of this program's arguments. -/
abbrev messages (c : Dev nD) : FVec Ideal S800000x3 .f32 :=
  Cert.ReferenceIdeal.Read.val_main_v29 (F := Ideal) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8))

/-- What point t writes back is block t of the messages. -/
theorem flushed_eq (c : Dev nD) (t : Fin cfg0.N) :
    (dat0 (V1 m ρ) c).flushed 6 t = ((cfg0.win 6).blk t).view.read (Elt Ideal) (messages m c) := by
  show (cfg0.win 6).cut (grid0.coords t) ((dat0 (V1 m ρ) c).after 6 t) = _
  rw [after0_6]
  unfold out0_6
  rw [View.canon_unit_zero hz]
  simp only [View.ld_unit_zero (S := S8000x256) hz, View.ld_unit_zero (S := S256x256) hz, View.ld_unit_zero (S := S1x256) hz,
    View.ld_unit_zero (S := S256x1) hz, View.ld_unit_zero (S := S1x1) hz, View.ld_unit_zero (S := S8000x3) hz]
  refine funext fun (y : S8000x3.Idx) => ?_
  obtain ⟨p, q, rfl⟩ : ∃ (p : Fin 8000) (q : Fin 3), y = ix2 p q := ⟨y 0, y 1, eq_ix2 y⟩
  have hN : cfg0.N = 100 := N_0
  have hp : p.val < 8000 := p.isLt
  have ht : t.val < 100 := hN ▸ t.isLt
  let e : Fin 800000 := ⟨t.val * 8000 + p.val, by omega⟩
  obtain ⟨-, -, -, -, -, -, -, -, -, -, -, -, o0, o1⟩ := idx_facts t
  show k0_pay1 (F := Ideal) (featBlk m ρ c t) (w1Blk m ρ c t) (b1Blk m ρ c t) (w2Blk m ρ c t) (b2Blk m ρ c t) (relBlk m ρ c t) (ix2 p q)
    = messages m c (((cfg0.win 6).blk t).view.emb (ix2 p q))
  rw [show ((cfg0.win 6).blk t).view.emb (ix2 p q) = ix2 e q from by
    funext a; apply Fin.ext
    match a with
    | ⟨0, _⟩ => show win0_6.index t (0 : Fin 2) * 8000 + 1 * p.val = t.val * 8000 + p.val; omega
    | ⟨1, _⟩ => show win0_6.index t (1 : Fin 2) * 3 + 1 * q.val = q.val; omega]
  refine (EdgeBody.pay_at (featBlk m ρ c t) (w1Blk m ρ c t) (b1Blk m ρ c t) (w2Blk m ρ c t) (b2Blk m ρ c t) (relBlk m ρ c t) p q).trans ?_
  refine Eq.trans ?_ (Cert.ReferenceIdeal.RefValue.message (m ((c : Thread nD τ).loc main_arg1)) (m ((c : Thread nD τ).loc main_arg5)) (m ((c : Thread nD τ).loc main_arg6)) (m ((c : Thread nD τ).loc main_arg7)) (m ((c : Thread nD τ).loc main_arg8)) (m ((c : Thread nD τ).loc main_arg2)) (m ((c : Thread nD τ).loc main_arg4)) e q).symm
  refine congrArg₂ (· * ·) (relBlk_at m ρ c t p q e rfl) ?_
  refine congr (congr (congr (congr (congrArg Mlp.out (funext fun r => featBlk_at m ρ c t p r e rfl))
    (funext fun r => funext fun l => w1Blk_at m ρ c t r l)) (funext fun l => b1Blk_at m ρ c t l))
    (funext fun l => w2Blk_at m ρ c t l)) (b2Blk_at m ρ c t)

/-- An index of the output array is in point t's block iff its coordinates are within the block's bounds. -/
theorem mem_blk (t : Fin cfg0.N) (i : S800000x3.Idx) :
    i ∈ ((cfg0.win 6).blk t).view.set
      ↔ ∀ a : Fin 2, win0_6.index t a * S8000x3.size a ≤ (i a).val ∧ (i a).val < win0_6.index t a * S8000x3.size a + S8000x3.size a := by
  show i ∈ ((View.whole main_v22).slice (win0_6.rect t)).set ↔ _
  rw [View.set_slice_whole, Rect.mem_set_unit]
  exact Iff.rfl

/-- Every edge's row lies in the block of the point its row number divided by 8000 names. -/
theorem cover (i : S800000x3.Idx) : ∃ t : Fin cfg0.N, (cfg0.win 6).flush t = true ∧ i ∈ ((cfg0.win 6).blk t).view.set := by
  have hi0 : (i 0).val < 800000 := (i 0).isLt
  have hi1 : (i 1).val < 3 := (i 1).isLt
  have hN : cfg0.N = 100 := N_0
  let t : Fin cfg0.N := ⟨(i 0).val / 8000, by rw [hN]; omega⟩
  obtain ⟨-, -, -, -, -, -, -, -, -, -, -, -, o0, o1⟩ := idx_facts t
  have ht : t.val = (i 0).val / 8000 := rfl
  refine ⟨t, flush0_6 t, ?_⟩
  rw [mem_blk]
  intro a
  match a with
  | ⟨0, _⟩ =>
    show win0_6.index t (0 : Fin 2) * 8000 ≤ (i 0).val ∧ (i 0).val < win0_6.index t (0 : Fin 2) * 8000 + 8000
    omega
  | ⟨1, _⟩ =>
    show win0_6.index t (1 : Fin 2) * 3 ≤ (i 1).val ∧ (i 1).val < win0_6.index t (1 : Fin 2) * 3 + 3
    omega

/-- Region 0's output array ends as the reference's message stage. -/
theorem final (c : Dev nD) : (dat0 (V1 m ρ) c).arrAt 6 cfg0.N = messages m c :=
  (dat0 (V1 m ρ) c).arrAt_eq_of_cover 6 (messages m c) (fun t _ => flushed_eq m ρ c t) cover

end Cert.KernelIdeal.EdgeRegion

end
-- ==== Proof.GateRegion.lean ====
/-
  Region 1's output array: the result.

  The grid has 10 points; point t stages rows 5000·t … 5000·t + 4999 of the node features, of the velocities read as
  rows of 15, and of the geometric term, and the two weights and two biases whole, and writes back the same rows of
  the result. Entry (p, q) of what point t writes is 0 + Σ_k gate_k · velocity_{k,q} of node n = 5000·t + p, plus
  the geometric term at (n, q): the body's unrolled sum against the reference's host sum over the five velocities,
  column 3k + q of the row of 15 being entry (k, q) of the node's 5 × 3 velocities. The geometric term is the
  reference's scatter-mean stage because region 0 left the reference's messages. The ten blocks tile the 50000 rows:
  the point that covers row i is i / 5000.
-/
import proofs.«409513_j63608465654304_3_alg».proof.Proof.Gen.KernelIdeal.Frame
import proofs.«409513_j63608465654304_3_alg».proof.Proof.GateBody
import proofs.«409513_j63608465654304_3_alg».proof.Proof.Entry
import proofs.«409513_j63608465654304_3_alg».proof.Proof.EdgeRegion
import proofs.«409513_j63608465654304_3_alg».proof.Proof.RefValue
import Idealize.ShloMosaic.Lib.Pipeline.Value
import Idealize.ShloMosaic.Lib.ValueLayout

set_option maxRecDepth 16384

noncomputable section

namespace Cert.KernelIdeal.GateRegion

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The index maps over the grid: the row-blocked windows (features, velocities, geometric term, output) sit at block
    (t, 0), the weights and biases at block (0, 0). -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0
    ∧ win1_7.index t (0 : Fin 2) = t.val ∧ win1_7.index t (1 : Fin 2) = 0 :=
  (by decide +kernel : ∀ t : Fin grid1.N, _)

/-! ## The input blocks at a point, read off the arguments -/

abbrev featBlk (c : Dev nD) (t : Fin cfg1.N) : FVec Ideal S5000x256 .f32 := iblk1 (V3 m ρ) c 0 t
abbrev w1Blk (c : Dev nD) (t : Fin cfg1.N) : FVec Ideal S256x256 .bf16 := iblk1 (V3 m ρ) c 1 t
abbrev b1Blk (c : Dev nD) (t : Fin cfg1.N) : FVec Ideal S1x256 .f32 := iblk1 (V3 m ρ) c 2 t
abbrev w2Blk (c : Dev nD) (t : Fin cfg1.N) : FVec Ideal S256x5 .f32 := iblk1 (V3 m ρ) c 3 t
abbrev b2Blk (c : Dev nD) (t : Fin cfg1.N) : FVec Ideal S1x5 .f32 := iblk1 (V3 m ρ) c 4 t
abbrev velBlk (c : Dev nD) (t : Fin cfg1.N) : FVec Ideal S5000x15 .f32 := iblk1 (V3 m ρ) c 5 t
abbrev geomBlk (c : Dev nD) (t : Fin cfg1.N) : FVec Ideal S5000x3 .f32 := iblk1 (V3 m ρ) c 6 t

theorem featBlk_at (c : Dev nD) (t : Fin cfg1.N) (p : Fin 5000) (r : Fin 256) (n : Fin 50000) (hn : n.val = t.val * 5000 + p.val) :
    featBlk m ρ c t (ix2 p r) = ((m ((c : Thread nD τ).loc main_arg0)) : FVec Ideal S50000x256 .f32) (ix2 n r) := by
  obtain ⟨e0, e1, -⟩ := idx_facts t
  show V3 m ρ c main_arg0 (((cfg1.win 0).blk t).view.emb (ix2 p r)) = _
  rw [Entry.gate_feats]
  refine congrArg _ ?_
  funext a; apply Fin.ext
  match a with
  | ⟨0, _⟩ => show win1_0.index t (0 : Fin 2) * 5000 + 1 * p.val = n.val; omega
  | ⟨1, _⟩ => show win1_0.index t (1 : Fin 2) * 256 + 1 * r.val = r.val; omega

theorem w1Blk_at (c : Dev nD) (t : Fin cfg1.N) (r l : Fin 256) :
    w1Blk m ρ c t (ix2 r l) = ((m ((c : Thread nD τ).loc main_arg9)) : FVec Ideal S256x256 .f32) (ix2 r l) := by
  obtain ⟨-, -, e0, e1, -⟩ := idx_facts t
  show (V3 m ρ c main_v36 : FVec Ideal S256x256 .bf16) (((cfg1.win 1).blk t).view.emb (ix2 r l)) = _
  rw [Entry.gate_w1]
  show ((m ((c : Thread nD τ).loc main_arg9)) : FVec Ideal S256x256 .f32) _ = _
  refine congrArg _ ?_
  funext a; apply Fin.ext
  match a with
  | ⟨0, _⟩ => show win1_1.index t (0 : Fin 2) * 256 + 1 * r.val = r.val; omega
  | ⟨1, _⟩ => show win1_1.index t (1 : Fin 2) * 256 + 1 * l.val = l.val; omega

theorem b1Blk_at (c : Dev nD) (t : Fin cfg1.N) (l : Fin 256) :
    b1Blk m ρ c t (ix2 (0 : Fin 1) l) = ((m ((c : Thread nD τ).loc main_arg10)) : FVec Ideal S256 .f32) (ix1 l) := by
  obtain ⟨-, -, -, -, e0, e1, -⟩ := idx_facts t
  show (V3 m ρ c main_v37 : FVec Ideal S1x256 .f32) (((cfg1.win 2).blk t).view.emb (ix2 (0 : Fin 1) l)) = _
  rw [Entry.gate_b1]
  refine Eq.trans (congrArg (shapeCast S1x256 ((m ((c : Thread nD τ).loc main_arg10)) : FVec Ideal S256 .f32) shapeCasts_S256_S1x256) ?_) (shapeCast_a_1a_apply ((m ((c : Thread nD τ).loc main_arg10)) : FVec Ideal S256 .f32) shapeCasts_S256_S1x256 (0 : Fin 1) l)
  funext a; apply Fin.ext
  match a with
  | ⟨0, _⟩ => show win1_2.index t (0 : Fin 2) * 1 + 1 * 0 = 0; omega
  | ⟨1, _⟩ => show win1_2.index t (1 : Fin 2) * 256 + 1 * l.val = l.val; omega

theorem w2Blk_at (c : Dev nD) (t : Fin cfg1.N) (l : Fin 256) (k : Fin 5) :
    w2Blk m ρ c t (ix2 l k) = ((m ((c : Thread nD τ).loc main_arg11)) : FVec Ideal S256x5 .f32) (ix2 l k) := by
  obtain ⟨-, -, -, -, -, -, e0, e1, -⟩ := idx_facts t
  show V3 m ρ c main_arg11 (((cfg1.win 3).blk t).view.emb (ix2 l k)) = _
  rw [Entry.gate_w2]
  refine congrArg _ ?_
  funext a; apply Fin.ext
  match a with
  | ⟨0, _⟩ => show win1_3.index t (0 : Fin 2) * 256 + 1 * l.val = l.val; omega
  | ⟨1, _⟩ => show win1_3.index t (1 : Fin 2) * 5 + 1 * k.val = k.val; omega

theorem b2Blk_at (c : Dev nD) (t : Fin cfg1.N) (k : Fin 5) :
    b2Blk m ρ c t (ix2 (0 : Fin 1) k) = ((m ((c : Thread nD τ).loc main_arg12)) : FVec Ideal S5 .f32) (ix1 k) := by
  obtain ⟨-, -, -, -, -, -, -, -, e0, e1, -⟩ := idx_facts t
  show (V3 m ρ c main_v38 : FVec Ideal S1x5 .f32) (((cfg1.win 4).blk t).view.emb (ix2 (0 : Fin 1) k)) = _
  rw [Entry.gate_b2]
  refine Eq.trans (congrArg (shapeCast S1x5 ((m ((c : Thread nD τ).loc main_arg12)) : FVec Ideal S5 .f32) shapeCasts_S5_S1x5) ?_) (shapeCast_a_1a_apply ((m ((c : Thread nD τ).loc main_arg12)) : FVec Ideal S5 .f32) shapeCasts_S5_S1x5 (0 : Fin 1) k)
  funext a; apply Fin.ext
  match a with
  | ⟨0, _⟩ => show win1_4.index t (0 : Fin 2) * 1 + 1 * 0 = 0; omega
  | ⟨1, _⟩ => show win1_4.index t (1 : Fin 2) * 5 + 1 * k.val = k.val; omega

/-- Column 3k + q of a node's row of 15 is coordinate q of its velocity k. -/
theorem velBlk_at (c : Dev nD) (t : Fin cfg1.N) (p : Fin 5000) (k : Fin 5) (q : Fin 3) (n : Fin 50000) (hn : n.val = t.val * 5000 + p.val) :
    velBlk m ρ c t (ix2 p (GateBody.col k q)) = ((m ((c : Thread nD τ).loc main_arg3)) : FVec Ideal S50000x5x3 .f32) (ix3 n k q) := by
  obtain ⟨-, -, -, -, -, -, -, -, -, -, e0, e1, -⟩ := idx_facts t
  show (V3 m ρ c main_v35 : FVec Ideal S50000x15 .f32) (((cfg1.win 5).blk t).view.emb (ix2 p (GateBody.col k q))) = _
  rw [Entry.gate_vel]
  have hk : k.val < 5 := k.isLt
  have hq : q.val < 3 := q.isLt
  have hp : p.val < 5000 := p.isLt
  refine shapeCast_apply ((m ((c : Thread nD τ).loc main_arg3)) : FVec Ideal S50000x5x3 .f32) shapeCasts_S50000x5x3_S50000x15 _ (ix3 n k q) ?_
  show (S50000x5x3.rowMajor (ix3 n k q)).val = (S50000x15.rowMajor (((cfg1.win 5).blk t).view.emb (ix2 p (GateBody.col k q)))).val
  rw [Shape.rowMajor_val_three, Shape.rowMajor_val_two]
  show (n.val * 5 + k.val) * 3 + q.val = (win1_5.index t (0 : Fin 2) * 5000 + 1 * p.val) * 15 + (win1_5.index t (1 : Fin 2) * 15 + 1 * (3 * k.val + q.val))
  omega

/-- The geometric term as region 1 finds it: the reference's scatter-mean stage (region 0 left the reference's messages). -/
theorem geom_entry (c : Dev nD) : V3 m ρ c main_v34 = Cert.ReferenceIdeal.Read.val_main_v41 (F := Ideal) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) :=
  Entry.gate_geom m ρ c (EdgeRegion.final m ρ c)

/-- Entry (p, q) of point t's block of the geometric window is entry (5000·t + p, q) of its array. -/
theorem geom_idx (t : Fin cfg1.N) (p : Fin 5000) (q : Fin 3) (n : Fin 50000) (hn : n.val = t.val * 5000 + p.val) :
    ((cfg1.win 6).blk t).view.emb (ix2 p q) = ix2 n q := by
  obtain ⟨-, -, -, -, -, -, -, -, -, -, -, -, e0, e1, -⟩ := idx_facts t
  funext a; apply Fin.ext
  match a with
  | ⟨0, _⟩ => show win1_6.index t (0 : Fin 2) * 5000 + 1 * p.val = n.val; omega
  | ⟨1, _⟩ => show win1_6.index t (1 : Fin 2) * 3 + 1 * q.val = q.val; omega

/-- The block read holds for any contents the region is entered with: it is a statement about indices only. -/
theorem geom_read (V : (c : Dev nD) → (b : Ref sig .tc) → Buf (Elt Ideal) ((c : Thread nD τ).loc b))
    (c : Dev nD) (t : Fin cfg1.N) (p : Fin 5000) (q : Fin 3) (n : Fin 50000) (hn : n.val = t.val * 5000 + p.val) :
    (iblk1 V c 6 t : FVec Ideal S5000x3 .f32) (ix2 p q) = (V c main_v34 : FVec Ideal S50000x3 .f32) (ix2 n q) := by
  show V c main_v34 (((cfg1.win 6).blk t).view.emb (ix2 p q)) = _
  exact congrArg (V c main_v34) (geom_idx t p q n hn)

theorem geomBlk_at (c : Dev nD) (t : Fin cfg1.N) (p : Fin 5000) (q : Fin 3) (n : Fin 50000) (hn : n.val = t.val * 5000 + p.val) :
    geomBlk m ρ c t (ix2 p q) = Cert.ReferenceIdeal.Read.val_main_v41 (F := Ideal) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (ix2 n q) :=
  (geom_read (V3 m ρ) c t p q n hn).trans (congrFun (geom_entry m ρ c) (ix2 n q))

/-! ## What a point writes back, the cover, the array -/

/-- The reference's result stage of this program's arguments. -/
abbrev result (c : Dev nD) : FVec Ideal S50000x3 .f32 :=
  Cert.ReferenceIdeal.Read.val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))

/-- What point t writes back is block t of the result. -/
theorem flushed_eq (c : Dev nD) (t : Fin cfg1.N) :
    (dat1 (V3 m ρ) c).flushed 7 t = ((cfg1.win 7).blk t).view.read (Elt Ideal) (result m c) := by
  show (cfg1.win 7).cut (grid1.coords t) ((dat1 (V3 m ρ) c).after 7 t) = _
  rw [after1_7]
  unfold out1_7
  rw [View.canon_unit_zero hz]
  simp only [View.ld_unit_zero (S := S5000x256) hz, View.ld_unit_zero (S := S256x256) hz, View.ld_unit_zero (S := S1x256) hz,
    View.ld_unit_zero (S := S256x5) hz, View.ld_unit_zero (S := S1x5) hz, View.ld_unit_zero (S := S5000x15) hz,
    View.ld_unit_zero (S := S5000x3) hz]
  refine funext fun (y : S5000x3.Idx) => ?_
  obtain ⟨p, q, rfl⟩ : ∃ (p : Fin 5000) (q : Fin 3), y = ix2 p q := ⟨y 0, y 1, eq_ix2 y⟩
  have hN : cfg1.N = 10 := N_1
  have hp : p.val < 5000 := p.isLt
  have ht : t.val < 10 := hN ▸ t.isLt
  let n : Fin 50000 := ⟨t.val * 5000 + p.val, by omega⟩
  obtain ⟨-, -, -, -, -, -, -, -, -, -, -, -, -, -, o0, o1⟩ := idx_facts t
  show k1_pay1 (F := Ideal)
      (k1_pay4 (featBlk m ρ c t) (w1Blk m ρ c t) (b1Blk m ρ c t) (w2Blk m ρ c t) (b2Blk m ρ c t) (velBlk m ρ c t))
      (k1_pay5 (featBlk m ρ c t) (w1Blk m ρ c t) (b1Blk m ρ c t) (w2Blk m ρ c t) (b2Blk m ρ c t) (velBlk m ρ c t))
      (geomBlk m ρ c t) (ix2 p q)
    = result m c (((cfg1.win 7).blk t).view.emb (ix2 p q))
  rw [show ((cfg1.win 7).blk t).view.emb (ix2 p q) = ix2 n q from by
    funext a; apply Fin.ext
    match a with
    | ⟨0, _⟩ => show win1_7.index t (0 : Fin 2) * 5000 + 1 * p.val = t.val * 5000 + p.val; omega
    | ⟨1, _⟩ => show win1_7.index t (1 : Fin 2) * 3 + 1 * q.val = q.val; omega]
  refine (GateBody.pay_at (featBlk m ρ c t) (w1Blk m ρ c t) (b1Blk m ρ c t) (w2Blk m ρ c t) (b2Blk m ρ c t) (velBlk m ρ c t) (geomBlk m ρ c t) p q).trans ?_
  show _ = Cert.ReferenceIdeal.Read.val_main_v54 (F := Ideal) (m ((c : Thread nD τ).loc main_arg0)) (m ((c : Thread nD τ).loc main_arg3)) (m ((c : Thread nD τ).loc main_arg9)) (m ((c : Thread nD τ).loc main_arg10)) (m ((c : Thread nD τ).loc main_arg11)) (m ((c : Thread nD τ).loc main_arg12)) (ix2 n q)
      + Cert.ReferenceIdeal.Read.val_main_v41 (F := Ideal) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (ix2 n q)
  rw [Cert.ReferenceIdeal.RefValue.combo]
  refine congrArg₂ (· + ·) (congrArg₂ (· + ·) rfl (Finset.sum_congr rfl fun k _ => congrArg₂ (· * ·) ?_ (velBlk_at m ρ c t p k q n rfl)))
    (geomBlk_at m ρ c t p q n rfl)
  exact congr (congr (congr (congr (congrArg Mlp.out (funext fun r => featBlk_at m ρ c t p r n rfl))
    (funext fun r => funext fun l => w1Blk_at m ρ c t r l)) (funext fun l => b1Blk_at m ρ c t l))
    (funext fun l => w2Blk_at m ρ c t l k)) (b2Blk_at m ρ c t k)

/-- An index of the result array is in point t's block iff its coordinates are within the block's bounds. -/
theorem mem_blk (t : Fin cfg1.N) (i : S50000x3.Idx) :
    i ∈ ((cfg1.win 7).blk t).view.set
      ↔ ∀ a : Fin 2, win1_7.index t a * S5000x3.size a ≤ (i a).val ∧ (i a).val < win1_7.index t a * S5000x3.size a + S5000x3.size a := by
  show i ∈ ((View.whole main_v39).slice (win1_7.rect t)).set ↔ _
  rw [View.set_slice_whole, Rect.mem_set_unit]
  exact Iff.rfl

/-- Every node's row lies in the block of the point its row number divided by 5000 names. -/
theorem cover (i : S50000x3.Idx) : ∃ t : Fin cfg1.N, (cfg1.win 7).flush t = true ∧ i ∈ ((cfg1.win 7).blk t).view.set := by
  have hi0 : (i 0).val < 50000 := (i 0).isLt
  have hi1 : (i 1).val < 3 := (i 1).isLt
  have hN : cfg1.N = 10 := N_1
  let t : Fin cfg1.N := ⟨(i 0).val / 5000, by rw [hN]; omega⟩
  obtain ⟨-, -, -, -, -, -, -, -, -, -, -, -, -, -, o0, o1⟩ := idx_facts t
  have ht : t.val = (i 0).val / 5000 := rfl
  refine ⟨t, flush1_7 t, ?_⟩
  rw [mem_blk]
  intro a
  match a with
  | ⟨0, _⟩ =>
    show win1_7.index t (0 : Fin 2) * 5000 ≤ (i 0).val ∧ (i 0).val < win1_7.index t (0 : Fin 2) * 5000 + 5000
    omega
  | ⟨1, _⟩ =>
    show win1_7.index t (1 : Fin 2) * 3 ≤ (i 1).val ∧ (i 1).val < win1_7.index t (1 : Fin 2) * 3 + 3
    omega

/-- The result array ends as the reference's result stage of the same arguments. -/
theorem final (c : Dev nD) : (dat1 (V3 m ρ) c).arrAt 7 cfg1.N = result m c :=
  (dat1 (V3 m ρ) c).arrAt_eq_of_cover 7 (result m c) (fun t _ => flushed_eq m ρ c t) cover

/-- So the last boundary's contents at the result's buffer are that stage. -/
theorem last_contents (c : Dev nD) : V4 m ρ c main_v39 = result m c :=
  (W4_arr m ρ c 7).trans (final m ρ c)

end Cert.KernelIdeal.GateRegion

end
-- ==== Proof.lean ====
/-
  The kernel against its reference: an equivariant velocity update on a graph.

  Both programs compute, for each of 50000 nodes and each of 3 coordinates,
      out_{n,q} = Σ_k gate_{n,k} · vel_{n,k,q}  +  ( Σ_{e : dst e = n} rel_{e,q} · w_e ) / max(#{e : dst e = n}, 1),
  where the edge weight w_e and the five gates gate_{n,·} are two-layer perceptrons with a silu activation of the
  edge's and the node's 256 features, and rel_e = x[src e] − x[dst e].
  The kernel runs the two perceptrons as two pipelined regions (over blocks of 8000 edges and of 5000 nodes), with the
  gathers, the scatter-adds, the maximum and the quotient as host operations between them; the reference does
  everything on the host. Over the extended reals a narrowing to bf16 is the identity, the matrix unit's product into a
  zero accumulator is the host's dot_general, the sigmoid is 1 / (1 + exp (−h)) on both sides, and addition is
  associative, so each region's output array is, entry by entry, the reference's stage of the same name:
  region 0 leaves the reference's messages, the host operations between the regions are the reference's own applied
  to them, and region 1 leaves the reference's result. Nothing here needs the inputs finite.

  The three frames: the two kernels' are the generated frame certificates, the reference's is its generated run with the
  result dropped. The idealization rewrote nothing, so its conjunct is `True`.
-/
import proofs.«409513_j63608465654304_3_alg».proof.Defs
import proofs.«409513_j63608465654304_3_alg».proof.Proof.Gen.Kernel
import proofs.«409513_j63608465654304_3_alg».proof.Proof.Gen.Kernel.Skeleton
import proofs.«409513_j63608465654304_3_alg».proof.Proof.Gen.Kernel.Launch
import proofs.«409513_j63608465654304_3_alg».proof.Proof.Gen.Kernel.Points
import proofs.«409513_j63608465654304_3_alg».proof.Proof.Gen.Kernel.Frame
import proofs.«409513_j63608465654304_3_alg».proof.Proof.Gen.KernelIdeal
import proofs.«409513_j63608465654304_3_alg».proof.Proof.Gen.KernelIdeal.Skeleton
import proofs.«409513_j63608465654304_3_alg».proof.Proof.Gen.KernelIdeal.Launch
import proofs.«409513_j63608465654304_3_alg».proof.Proof.Gen.KernelIdeal.Points
import proofs.«409513_j63608465654304_3_alg».proof.Proof.Gen.KernelIdeal.Frame
import proofs.«409513_j63608465654304_3_alg».proof.Proof.Gen.ReferenceIdeal
import proofs.«409513_j63608465654304_3_alg».proof.Proof.Gen.ReferenceIdeal.Run
import proofs.«409513_j63608465654304_3_alg».proof.Proof.Gen.ReferenceIdeal.Read
import proofs.«409513_j63608465654304_3_alg».proof.Proof.Gen.Pre_finite_inputs
import proofs.«409513_j63608465654304_3_alg».proof.Proof.KernelLaunched
import proofs.«409513_j63608465654304_3_alg».proof.Proof.GateRegion
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- Both programs end with the reference's result stage of the (agreeing) arguments in their result arrays. -/
theorem algebraic : Cert.algebraic_KernelIdeal_ReferenceIdeal := by
  intro m ρ m' ρ' _ hagree
  refine ⟨fun c => Cert.KernelIdeal.GateRegion.result m c, ?_, ?_⟩
  · exact (θ_run Cert.KernelIdeal.defs _ _).mono
      (fun r h c => ⟨(h c).1.trans (Cert.KernelIdeal.GateRegion.last_contents m ρ c), (h c).2⟩)
      (Cert.KernelIdeal.Launched.run_main m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8, a9, a10, a11, a12⟩ := hagree c
    rw [Cert.ReferenceIdeal.Read.val_main_v55_eq, a0, a1, a2, a3, a4, a5, a6, a7, a8, a9, a10, a11, a12]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
